-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S64 .f32) (main_arg7 : FVec F S64x10 .f32) (main_arg8 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg7
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64x64 .f32) (main_arg6 : FVec F S64 .f32) (main_arg7 : FVec F S64x10 .f32) (main_arg8 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S5000x64 : Shape := ⟨2, ![5000, 64]⟩
abbrev S1x10 : Shape := ⟨2, ![1, 10]⟩
abbrev S500x10 : Shape := ⟨2, ![500, 10]⟩
abbrev S1000x64 : Shape := ⟨2, ![1000, 64]⟩
abbrev S1000x1 : Shape := ⟨2, ![1000, 1]⟩
abbrev S500x64 : Shape := ⟨2, ![500, 64]⟩
abbrev S500x1 : Shape := ⟨2, ![500, 1]⟩
abbrev S1000x500 : Shape := ⟨2, ![1000, 500]⟩

abbrev nBuf : Space → Nat
  | .hbm => 46
  | .vmem => 25
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x10, .f32⟩
  | .hbm, ⟨8, _⟩ => ⟨S10, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000x1, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S1x64, .f32⟩
  | .hbm, ⟨28, _⟩ => ⟨S50000x64, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | .hbm, ⟨42, _⟩ => ⟨S1x64, .f32⟩
  | .hbm, ⟨43, _⟩ => ⟨S50000x64, .f32⟩
  | .hbm, ⟨44, _⟩ => ⟨S1x10, .f32⟩
  | .hbm, ⟨45, _⟩ => ⟨S500x10, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S1000x64, .f32⟩
  | .local _ .vmem, ⟨17, _⟩ => ⟨S1000x64, .f32⟩
  | .local _ .vmem, ⟨18, _⟩ => ⟨S1000x1, .i32⟩
  | .local _ .vmem, ⟨19, _⟩ => ⟨S1000x1, .i32⟩
  | .local _ .vmem, ⟨20, _⟩ => ⟨S64x10, .f32⟩
  | .local _ .vmem, ⟨21, _⟩ => ⟨S1x10, .f32⟩
  | .local _ .vmem, ⟨22, _⟩ => ⟨S500x10, .f32⟩
  | .local _ .vmem, ⟨23, _⟩ => ⟨S500x64, .f32⟩
  | .local _ .vmem, ⟨24, _⟩ => ⟨S500x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_scratch0 : Ref sig .tc := ⟨.vmem, 23, rfl⟩
abbrev cc2_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v28 : BitVec 1 := Scalar.cmpi .eq arg0 c49_i32
  let v29 : BitVec 32 := Scalar.extui v28
  let c0_i32_14 : BitVec 32 := 0#32
  let v30 : BitVec 1 := Scalar.cmpi .ne v29 c0_i32_14
  v30

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S500x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S10_S1x10 : S10.ShapeCasts S1x10
  inb_S500x64_S500x64_0_0 : ∀ a, (![0, 0] : Fin 2 → Nat) a + S500x64.size a ≤ S500x64.size a
  h_S500x64 : 0 < S500x64.numel
  shapeCasts_S500x64_S500x64 : S500x64.ShapeCasts S500x64
  inb_S500x1_S500x1_0_0 : ∀ a, (![0, 0] : Fin 2 → Nat) a + S500x1.size a ≤ S500x1.size a
  h_S500x1 : 0 < S500x1.numel
  shapeCasts_S500x1_S500x1 : S500x1.ShapeCasts S500x1
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x500_d1_w32 : S1000x500.Iotas .tc 32 [1]
  broadcasts_S1000x1_S1000x500 : S1000x1.Broadcasts S1000x500
  natLt_1_32 : 1 < 32
  broadcasts_S500x1_S500x64 : S500x1.Broadcasts S500x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S500x10 : S1x10.Broadcasts S500x10
  inb_S500x10_S500x10_0_0 : ∀ a, (![0, 0] : Fin 2 → Nat) a + S500x10.size a ≤ S500x10.size a
  h_S500x10 : 0 < S500x10.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S1000x500_S1000x64_S500x64_0_0_1_1_n_n_wf : DotDims.WF S1000x500 S1000x64 S500x64 [0] [0] [1] [1] [] []
  dot_S1000x500_S1000x1_S500x1_0_0_1_1_n_n_wf : DotDims.WF S1000x500 S1000x1 S500x1 [0] [0] [1] [1] [] []
  dot_S500x64_S64x10_S500x10_1_0_0_1_n_n_wf : DotDims.WF S500x64 S64x10 S500x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S50000x64.size a
  hwx2_0 : ∀ i : grid2.Coords, EltTy.bits .f32 = 32 ∨ (Rect.block (s := S50000x64) S1000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S50000x1.size a
  hwx2_1 : ∀ i : grid2.Coords, EltTy.bits .i32 = 32 ∨ (Rect.block (s := S50000x1) S1000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x10.size a ≤ S64x10.size a
  hwx2_2 : ∀ i : grid2.Coords, EltTy.bits .f32 = 32 ∨ (Rect.block (s := S64x10) S64x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S500x10.size a ≤ S500x10.size a
  hwx2_4 : ∀ i : grid2.Coords, EltTy.bits .f32 = 32 ∨ (Rect.block (s := S500x10) S500x10.size (cc2_transform_4 i) (hinb2_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S1000x500_S1000x64_S500x64_0_0_1_1_n_n : DotDims S1000x500 S1000x64 S500x64 where
  lhsContracting := [0]
  rhsContracting := [0]
  lhsNonContracting := [1]
  rhsNonContracting := [1]
  lhsBatch := []
  rhsBatch := []
  wf := dot_S1000x500_S1000x64_S500x64_0_0_1_1_n_n_wf
def dot_S1000x500_S1000x1_S500x1_0_0_1_1_n_n : DotDims S1000x500 S1000x1 S500x1 where
  lhsContracting := [0]
  rhsContracting := [0]
  lhsNonContracting := [1]
  rhsNonContracting := [1]
  lhsBatch := []
  rhsBatch := []
  wf := dot_S1000x500_S1000x1_S500x1_0_0_1_1_n_n_wf
def dot_S500x64_S64x10_S500x10_1_0_0_1_n_n : DotDims S500x64 S64x10 S500x10 where
  lhsContracting := [1]
  rhsContracting := [0]
  lhsNonContracting := [0]
  rhsNonContracting := [1]
  lhsBatch := []
  rhsBatch := []
  wf := dot_S500x64_S64x10_S500x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v28) S1000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S500x10.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S500x64 : Shape := ⟨2, ![500, 64]⟩
abbrev S50000x1 : Shape := ⟨2, ![50000, 1]⟩
abbrev S500 : Shape := ⟨1, ![500]⟩
abbrev S500x1 : Shape := ⟨2, ![500, 1]⟩
abbrev S500x10 : Shape := ⟨2, ![500, 10]⟩
abbrev S1x10 : Shape := ⟨2, ![1, 10]⟩

abbrev nBuf : Space → Nat
  | .hbm => 81
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x10, .f32⟩
  | .hbm, ⟨8, _⟩ => ⟨S10, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S_, .f32⟩
  | .hbm, ⟨23, _⟩ => ⟨S50000x64, .f32⟩
  | .hbm, ⟨24, _⟩ => ⟨S800000x1, .i32⟩
  | .hbm, ⟨25, _⟩ => ⟨S50000x64, .f32⟩
  | .hbm, ⟨26, _⟩ => ⟨S_, .f32⟩
  | .hbm, ⟨27, _⟩ => ⟨S50000x64, .f32⟩
  | .hbm, ⟨28, _⟩ => ⟨S50000x64, .f32⟩
  | .hbm, ⟨29, _⟩ => ⟨S50000x64, .f32⟩
  | .hbm, ⟨30, _⟩ => ⟨S50000x64, .f32⟩
  | .hbm, ⟨31, _⟩ => ⟨S1x64, .f32⟩
  | .hbm, ⟨32, _⟩ => ⟨S50000x64, .f32⟩
  | .hbm, ⟨33, _⟩ => ⟨S50000x64, .f32⟩
  | .hbm, ⟨34, _⟩ => ⟨S_, .f32⟩
  | .hbm, ⟨35, _⟩ => ⟨S50000x64, .f32⟩
  | .hbm, ⟨36, _⟩ => ⟨S50000x64, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S_, .f32⟩
  | .hbm, ⟨51, _⟩ => ⟨S50000x64, .f32⟩
  | .hbm, ⟨52, _⟩ => ⟨S50000x64, .f32⟩
  | .hbm, ⟨53, _⟩ => ⟨S50000x64, .f32⟩
  | .hbm, ⟨54, _⟩ => ⟨S50000x64, .f32⟩
  | .hbm, ⟨55, _⟩ => ⟨S1x64, .f32⟩
  | .hbm, ⟨56, _⟩ => ⟨S50000x64, .f32⟩
  | .hbm, ⟨57, _⟩ => ⟨S50000x64, .f32⟩
  | .hbm, ⟨58, _⟩ => ⟨S_, .f32⟩
  | .hbm, ⟨59, _⟩ => ⟨S50000x64, .f32⟩
  | .hbm, ⟨60, _⟩ => ⟨S50000x64, .f32⟩
  | .hbm, ⟨61, _⟩ => ⟨S_, .f32⟩
  | .hbm, ⟨62, _⟩ => ⟨S500x64, .f32⟩
  | .hbm, ⟨63, _⟩ => ⟨S50000x1, .i32⟩
  | .hbm, ⟨64, _⟩ => ⟨S500x64, .f32⟩
  | .hbm, ⟨65, _⟩ => ⟨S_, .f32⟩
  | .hbm, ⟨66, _⟩ => ⟨S50000, .f32⟩
  | .hbm, ⟨67, _⟩ => ⟨S_, .f32⟩
  | .hbm, ⟨68, _⟩ => ⟨S500, .f32⟩
  | .hbm, ⟨69, _⟩ => ⟨S50000x1, .i32⟩
  | .hbm, ⟨70, _⟩ => ⟨S500, .f32⟩
  | .hbm, ⟨71, _⟩ => ⟨S_, .f32⟩
  | .hbm, ⟨72, _⟩ => ⟨S500, .f32⟩
  | .hbm, ⟨73, _⟩ => ⟨S500, .f32⟩
  | .hbm, ⟨74, _⟩ => ⟨S500x1, .f32⟩
  | .hbm, ⟨75, _⟩ => ⟨S500x64, .f32⟩
  | .hbm, ⟨76, _⟩ => ⟨S500x64, .f32⟩
  | .hbm, ⟨77, _⟩ => ⟨S500x10, .f32⟩
  | .hbm, ⟨78, _⟩ => ⟨S1x10, .f32⟩
  | .hbm, ⟨79, _⟩ => ⟨S500x10, .f32⟩
  | .hbm, ⟨80, _⟩ => ⟨S500x10, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_cst : Ref sig .tc := ⟨.hbm, 34, rfl⟩
abbrev main_call0_v0 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call1_cst : Ref sig .tc := ⟨.hbm, 58, rfl⟩
abbrev main_call1_v0 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S500x64 : S_.BroadcastsInDim S500x64 (![] : Fin 0 → Fin S500x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S500 : S_.BroadcastsInDim S500 (![] : Fin 0 → Fin S500.rank)
  bcast_S500_S500x1_0 : S500.BroadcastsInDim S500x1 (![0] : Fin 1 → Fin S500x1.rank)
  bcast_S500x1_S500x64_0_1 : S500x1.BroadcastsInDim S500x64 (![0, 1] : Fin 2 → Fin S500x64.rank)
  bcast_S10_S1x10_1 : S10.BroadcastsInDim S1x10 (![1] : Fin 1 → Fin S1x10.rank)
  bcast_S1x10_S500x10_0_1 : S1x10.BroadcastsInDim S500x10 (![0, 1] : Fin 2 → Fin S500x10.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S500x64_S50000x1_S50000x64_1_0_0_1_wf : ScatterDims.WF S500x64 S50000x1 S50000x64 [1] [0] [0] 1
  scatter_S500_S50000x1_S50000_n_0_0_1_wf : ScatterDims.WF S500 S50000x1 S50000 [] [0] [0] 1
  dot_S500x64_S64x10_S500x10_1_0_0_1_n_n_wf : DotDims.WF S500x64 S64x10 S500x10 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x64_S64x10_S500x10_1_0_0_1_n_n : DotDims S500x64 S64x10 S500x10 where
  lhsContracting := [1]
  rhsContracting := [0]
  lhsNonContracting := [0]
  rhsNonContracting := [1]
  lhsBatch := []
  rhsBatch := []
  wf := dot_S500x64_S64x10_S500x10_1_0_0_1_n_n_wf

class Facts : Prop extends Facts₀ where

variable [Facts]
-- ==== Proof.K.Lin0.lean ====
/-
  The first linear-and-relu launch, one grid point at a time, at any float instance.

  The launch runs ten grid points; at point t the body is handed rows 5000·t … 5000·t + 4999 of the node features
  and of the neighbour sums, the whole weight matrix and the bias row, and stores one value — the body's arithmetic
  of those four blocks — over the whole output block, which is written back at every point. Nothing is carried from
  one point to the next. Stated at a parameter V: the contents of the buffers when the launch is entered.
-/
import proofs.«429733_j73710228734579_1_alg».proof.Proof.Gen.Kernel.Launch
import proofs.«429733_j73710228734579_1_alg».proof.Proof.Gen.Kernel.Skeleton
import proofs.«429733_j73710228734579_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not it was fetched there (an
    unfetched window's block index has not moved); one statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rN0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-- What the body leaves in the output block: its one store, of the body's arithmetic of the four input blocks. -/
def out0_4 (x0 x1 : Vec F S5000x64 .f32) (x2 : Vec F S64x64 .f32) (x3 : Vec F S1x64 .f32) : Vec F S5000x64 .f32 :=
  View.canon [⟨rN0, k0_pay1 (View.ld x0 rN0) (View.ld x1 rN0) (View.ld x2 rW0) (View.ld x3 rB0)⟩]

/-- The one store covers the block. -/
theorem cover0_4 (p0 : Vec F S5000x64 .f32) (y : S5000x64.Idx) :
    ∃ pc ∈ ([⟨rN0, p0⟩] : List (View.Piece (Elt F) S5000x64 .f32)), y ∈ pc.1.set :=
  View.cover_of_tiled [⟨rN0, p0⟩] S5000x64.size (by rfl) y

set_option maxHeartbeats 1000000 in
/-- The body on whole staging buffers: the four inputs come back as they were, the output holds `out0_4` of them. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S5000x64 .f32) (harg5 : arg5.IsWhole)
    (x0 x1 : Vec F S5000x64 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__lin_relu_kernel i arg1 harg1 arg2 harg2 arg3 harg3 arg4 harg4 arg5 harg5) K := by
  simp only [cc0__lin_relu_kernel_eq_skeleton]; unfold cc0__lin_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The launch's proof data: the arrays as the launch finds them; after the body at point t each input buffer at its
    block and the output buffer at `out0_4` of the four input blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the launch, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Lin1.lean ====
/-
  The second linear-and-relu launch, one grid point at a time, at any float instance.

  The launch runs ten grid points; at point t the body is handed rows 5000·t … 5000·t + 4999 of the node features
  and of the neighbour sums, the whole weight matrix and the bias row, and stores one value — the body's arithmetic
  of those four blocks — over the whole output block, which is written back at every point. Nothing is carried from
  one point to the next. Stated at a parameter V: the contents of the buffers when the launch is entered.
-/
import proofs.«429733_j73710228734579_1_alg».proof.Proof.Gen.Kernel.Launch
import proofs.«429733_j73710228734579_1_alg».proof.Proof.Gen.Kernel.Skeleton
import proofs.«429733_j73710228734579_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not it was fetched there (an
    unfetched window's block index has not moved); one statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rN1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-- What the body leaves in the output block: its one store, of the body's arithmetic of the four input blocks. -/
def out1_4 (x0 x1 : Vec F S5000x64 .f32) (x2 : Vec F S64x64 .f32) (x3 : Vec F S1x64 .f32) : Vec F S5000x64 .f32 :=
  View.canon [⟨rN1, k1_pay1 (View.ld x0 rN1) (View.ld x1 rN1) (View.ld x2 rW1) (View.ld x3 rB1)⟩]

/-- The one store covers the block. -/
theorem cover1_4 (p0 : Vec F S5000x64 .f32) (y : S5000x64.Idx) :
    ∃ pc ∈ ([⟨rN1, p0⟩] : List (View.Piece (Elt F) S5000x64 .f32)), y ∈ pc.1.set :=
  View.cover_of_tiled [⟨rN1, p0⟩] S5000x64.size (by rfl) y

set_option maxHeartbeats 1000000 in
/-- The body on whole staging buffers: the four inputs come back as they were, the output holds `out1_4` of them. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S5000x64 .f32) (harg5 : arg5.IsWhole)
    (x0 x1 : Vec F S5000x64 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__lin_relu_kernel i arg1 harg1 arg2 harg2 arg3 harg3 arg4 harg4 arg5 harg5) K := by
  simp only [cc1__lin_relu_kernel_eq_skeleton]; unfold cc1__lin_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The launch's proof data: the arrays as the launch finds them; after the body at point t each input buffer at its
    block and the output buffer at `out1_4` of the four input blocks; nothing carried, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the launch, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.PoolRuns.lean ====
/-
  The pooling body, run at a grid point, at any float instance.

  The launch runs fifty grid points; at point k the body is handed rows 1000·k … 1000·k + 999 of the node features and
  of the node-to-graph ids. Two accumulators are kept from point to point in scratch memory: the per-graph feature sums
  and the per-graph node counts. At the first point the body zeroes both, at every point it adds the block's
  contribution, and at the last point it stores the classifier of the finished sums and counts over the whole output
  block. Three runs of the body, one per kind of point.
-/
import proofs.«429733_j73710228734579_1_alg».proof.Proof.Gen.Kernel.Launch
import proofs.«429733_j73710228734579_1_alg».proof.Proof.Gen.Kernel.Skeleton
import proofs.«429733_j73710228734579_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The steps of the pooling body that depend on the grid point: the reset at the first point, -/
abbrev cond2_0 (i : grid2.Coords) : Prop := (Scalar.cmpi .ne (Scalar.extui (Scalar.cmpi .eq (BitVec.ofNat 32 (i 0).val) 0#32)) 0#32) = 1#1
/-- and the classifier at the last. -/
abbrev cond2_1 (i : grid2.Coords) : Prop := k2_cond2 i = 1#1

/-- A buffer whose last store went through the whole-block rectangle reads as that store's value. -/
theorem read_writes_cons_whole {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self .., View.mem_set_unit_zero h inb y⟩),
    View.canon_cons_unit_zero h inb]

theorem hz2 : (![0, 0] : Fin 2 → Nat) = fun _ => 0 := by funext a; fin_cases a <;> rfl

set_option maxHeartbeats 1000000 in
/-- At the first point the body zeroes both accumulators and adds the block's contribution to them; the output block
    is not touched. -/
theorem run2_first (c : Dev nD) (E : Set ℕ) (i : grid2.Coords)
    (arg1 : Memref sig .tc .vmem S1000x64 .f32) (harg1 : arg1.IsWhole) (arg2 : Memref sig .tc .vmem S1000x1 .i32) (harg2 : arg2.IsWhole)
    (arg3 : Memref sig .tc .vmem S64x10 .f32) (harg3 : arg3.IsWhole) (arg4 : Memref sig .tc .vmem S1x10 .f32) (harg4 : arg4.IsWhole)
    (arg5 : Memref sig .tc .vmem S500x10 .f32) (harg5 : arg5.IsWhole) (arg6 : Memref sig .tc .vmem S500x64 .f32) (harg6 : arg6.IsWhole)
    (arg7 : Memref sig .tc .vmem S500x1 .f32) (harg7 : arg7.IsWhole)
    (hc0 : cond2_0 i) (hc1 : ¬cond2_1 i)
    (x0 : Vec F S1000x64 .f32) (b0 : Vec F S1000x1 .i32) (x2 : Vec F S64x10 .f32) (x3 : Vec F S1x10 .f32) (o : Vec F S500x10 .f32)
    (K : PUnit → sProp 𝕄) :
    iprop(owns (c : Thread nD τ) arg1 fullShare x0 ∗ owns (c : Thread nD τ) arg2 fullShare b0 ∗ owns (c : Thread nD τ) arg3 fullShare x2 ∗ owns (c : Thread nD τ) arg4 fullShare x3 ∗ owns (c : Thread nD τ) arg5 fullShare o
        ∗ (∃ s, owns (c : Thread nD τ) arg6 fullShare s) ∗ (∃ s, owns (c : Thread nD τ) arg7 fullShare s)
        ∗ (iprop(owns (c : Thread nD τ) arg1 fullShare x0 ∗ owns (c : Thread nD τ) arg2 fullShare b0 ∗ owns (c : Thread nD τ) arg3 fullShare x2 ∗ owns (c : Thread nD τ) arg4 fullShare x3 ∗ owns (c : Thread nD τ) arg5 fullShare o
            ∗ owns (c : Thread nD τ) arg6 fullShare (k2_pay4 x0 b0 k2_pay1) ∗ owns (c : Thread nD τ) arg7 fullShare (k2_pay5 b0 k2_pay2)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%s5, %f5, -, H5⟩, ⟨%s6, %f6, -, H6⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_cons_whole (S := S500x64) _ _ hz2 _ _ _).trans ?_
    sl_unfold_words
    simp only [View.readAt_eq_ld, View.ld_unit_zero (S := S1000x64) hz2, View.ld_unit_zero (S := S1000x1) hz2, View.ld_unit_zero (S := S500x64) hz2, View.ld_unit_zero (S := S500x1) hz2, View.ld_unit_zero (S := S64x10) hz2, View.ld_unit_zero (S := S1x10) hz2, View.readCov_unit_zero (S := S500x64) _ hz2, View.readCov_unit_zero (S := S500x1) _ hz2]
  iexists _; isplitr
  swap; · iexact H6
  ipureintro
  refine (read_writes_cons_whole (S := S500x1) _ _ hz2 _ _ _).trans ?_
  sl_unfold_words
  simp only [View.readAt_eq_ld, View.ld_unit_zero (S := S1000x64) hz2, View.ld_unit_zero (S := S1000x1) hz2, View.ld_unit_zero (S := S500x64) hz2, View.ld_unit_zero (S := S500x1) hz2, View.ld_unit_zero (S := S64x10) hz2, View.ld_unit_zero (S := S1x10) hz2, View.readCov_unit_zero (S := S500x64) _ hz2, View.readCov_unit_zero (S := S500x1) _ hz2]

set_option maxHeartbeats 1000000 in
/-- At a middle point the body adds the block's contribution to both accumulators; the output block is not touched. -/
theorem run2_mid (c : Dev nD) (E : Set ℕ) (i : grid2.Coords)
    (arg1 : Memref sig .tc .vmem S1000x64 .f32) (harg1 : arg1.IsWhole) (arg2 : Memref sig .tc .vmem S1000x1 .i32) (harg2 : arg2.IsWhole)
    (arg3 : Memref sig .tc .vmem S64x10 .f32) (harg3 : arg3.IsWhole) (arg4 : Memref sig .tc .vmem S1x10 .f32) (harg4 : arg4.IsWhole)
    (arg5 : Memref sig .tc .vmem S500x10 .f32) (harg5 : arg5.IsWhole) (arg6 : Memref sig .tc .vmem S500x64 .f32) (harg6 : arg6.IsWhole)
    (arg7 : Memref sig .tc .vmem S500x1 .f32) (harg7 : arg7.IsWhole)
    (hc0 : ¬cond2_0 i) (hc1 : ¬cond2_1 i)
    (x0 : Vec F S1000x64 .f32) (b0 : Vec F S1000x1 .i32) (x2 : Vec F S64x10 .f32) (x3 : Vec F S1x10 .f32) (o : Vec F S500x10 .f32)
    (s : Vec F S500x64 .f32) (cn : Vec F S500x1 .f32) (K : PUnit → sProp 𝕄) :
    iprop(owns (c : Thread nD τ) arg1 fullShare x0 ∗ owns (c : Thread nD τ) arg2 fullShare b0 ∗ owns (c : Thread nD τ) arg3 fullShare x2 ∗ owns (c : Thread nD τ) arg4 fullShare x3 ∗ owns (c : Thread nD τ) arg5 fullShare o
        ∗ owns (c : Thread nD τ) arg6 fullShare s ∗ owns (c : Thread nD τ) arg7 fullShare cn
        ∗ (iprop(owns (c : Thread nD τ) arg1 fullShare x0 ∗ owns (c : Thread nD τ) arg2 fullShare b0 ∗ owns (c : Thread nD τ) arg3 fullShare x2 ∗ owns (c : Thread nD τ) arg4 fullShare x3 ∗ owns (c : Thread nD τ) arg5 fullShare o
            ∗ owns (c : Thread nD τ) arg6 fullShare (k2_pay4 x0 b0 s) ∗ owns (c : Thread nD τ) arg7 fullShare (k2_pay5 b0 cn)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_cons_whole (S := S500x64) _ _ hz2 _ _ _).trans ?_
    try sl_unfold_words
    simp only [View.readAt_eq_ld, View.ld_unit_zero (S := S1000x64) hz2, View.ld_unit_zero (S := S1000x1) hz2, View.ld_unit_zero (S := S500x64) hz2, View.ld_unit_zero (S := S500x1) hz2, View.ld_unit_zero (S := S64x10) hz2, View.ld_unit_zero (S := S1x10) hz2, View.readCov_unit_zero (S := S500x64) _ hz2, View.readCov_unit_zero (S := S500x1) _ hz2]
  iexists _; isplitr
  swap; · iexact H6
  ipureintro
  refine (read_writes_cons_whole (S := S500x1) _ _ hz2 _ _ _).trans ?_
  try sl_unfold_words
  simp only [View.readAt_eq_ld, View.ld_unit_zero (S := S1000x64) hz2, View.ld_unit_zero (S := S1000x1) hz2, View.ld_unit_zero (S := S500x64) hz2, View.ld_unit_zero (S := S500x1) hz2, View.ld_unit_zero (S := S64x10) hz2, View.ld_unit_zero (S := S1x10) hz2, View.readCov_unit_zero (S := S500x64) _ hz2, View.readCov_unit_zero (S := S500x1) _ hz2]

set_option maxHeartbeats 1000000 in
/-- At the last point the body adds the block's contribution to both accumulators and stores the classifier of the
    finished sums and counts over the whole output block. -/
theorem run2_last (c : Dev nD) (E : Set ℕ) (i : grid2.Coords)
    (arg1 : Memref sig .tc .vmem S1000x64 .f32) (harg1 : arg1.IsWhole) (arg2 : Memref sig .tc .vmem S1000x1 .i32) (harg2 : arg2.IsWhole)
    (arg3 : Memref sig .tc .vmem S64x10 .f32) (harg3 : arg3.IsWhole) (arg4 : Memref sig .tc .vmem S1x10 .f32) (harg4 : arg4.IsWhole)
    (arg5 : Memref sig .tc .vmem S500x10 .f32) (harg5 : arg5.IsWhole) (arg6 : Memref sig .tc .vmem S500x64 .f32) (harg6 : arg6.IsWhole)
    (arg7 : Memref sig .tc .vmem S500x1 .f32) (harg7 : arg7.IsWhole)
    (hc0 : ¬cond2_0 i) (hc1 : cond2_1 i)
    (x0 : Vec F S1000x64 .f32) (b0 : Vec F S1000x1 .i32) (x2 : Vec F S64x10 .f32) (x3 : Vec F S1x10 .f32)
    (s : Vec F S500x64 .f32) (cn : Vec F S500x1 .f32) (K : PUnit → sProp 𝕄) :
    iprop(owns (c : Thread nD τ) arg1 fullShare x0 ∗ owns (c : Thread nD τ) arg2 fullShare b0 ∗ owns (c : Thread nD τ) arg3 fullShare x2 ∗ owns (c : Thread nD τ) arg4 fullShare x3 ∗ (∃ o, owns (c : Thread nD τ) arg5 fullShare o)
        ∗ owns (c : Thread nD τ) arg6 fullShare s ∗ owns (c : Thread nD τ) arg7 fullShare cn
        ∗ (iprop(owns (c : Thread nD τ) arg1 fullShare x0 ∗ owns (c : Thread nD τ) arg2 fullShare b0 ∗ owns (c : Thread nD τ) arg3 fullShare x2 ∗ owns (c : Thread nD τ) arg4 fullShare x3 ∗ owns (c : Thread nD τ) arg5 fullShare (k2_pay6 (k2_pay4 x0 b0 s) (k2_pay5 b0 cn) x2 x3)
            ∗ owns (c : Thread nD τ) arg6 fullShare (k2_pay4 x0 b0 s) ∗ owns (c : Thread nD τ) arg7 fullShare (k2_pay5 b0 cn)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%o4, %f4, -, H4⟩, ⟨%f5, %hf5, H5⟩, ⟨%f6, %hf6, H6⟩, Hk⟩
  subst hf0; subst hf1; subst hf2; subst hf3; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_cons_whole (S := S500x10) _ _ hz2 _ _ _).trans ?_
    try sl_unfold_words
    simp only [View.readAt_eq_ld, View.ld_unit_zero (S := S1000x64) hz2, View.ld_unit_zero (S := S1000x1) hz2, View.ld_unit_zero (S := S500x64) hz2, View.ld_unit_zero (S := S500x1) hz2, View.ld_unit_zero (S := S64x10) hz2, View.ld_unit_zero (S := S1x10) hz2, View.readCov_unit_zero (S := S500x64) _ hz2, View.readCov_unit_zero (S := S500x1) _ hz2]
  isplitl [H5]
  · iexists _; isplitr
    swap; · iexact H5
    ipureintro
    refine (read_writes_cons_whole (S := S500x64) _ _ hz2 _ _ _).trans ?_
    try sl_unfold_words
    simp only [View.readAt_eq_ld, View.ld_unit_zero (S := S1000x64) hz2, View.ld_unit_zero (S := S1000x1) hz2, View.ld_unit_zero (S := S500x64) hz2, View.ld_unit_zero (S := S500x1) hz2, View.ld_unit_zero (S := S64x10) hz2, View.ld_unit_zero (S := S1x10) hz2, View.readCov_unit_zero (S := S500x64) _ hz2, View.readCov_unit_zero (S := S500x1) _ hz2]
  iexists _; isplitr
  swap; · iexact H6
  ipureintro
  refine (read_writes_cons_whole (S := S500x1) _ _ hz2 _ _ _).trans ?_
  try sl_unfold_words
  simp only [View.readAt_eq_ld, View.ld_unit_zero (S := S1000x64) hz2, View.ld_unit_zero (S := S1000x1) hz2, View.ld_unit_zero (S := S500x64) hz2, View.ld_unit_zero (S := S500x1) hz2, View.ld_unit_zero (S := S64x10) hz2, View.ld_unit_zero (S := S1x10) hz2, View.readCov_unit_zero (S := S500x64) _ hz2, View.readCov_unit_zero (S := S500x1) _ hz2]

end Cert.Kernel.Hand

end
-- ==== Proof.K.Pool.lean ====
/-
  The pooling launch, one grid point at a time, at any float instance.

  What the two scratch accumulators hold after each point is a recursion on the point: after the first point the
  block's contribution over zeros, after every later point the block's contribution over what the point before left.
  The output block is stored at the last point only and written back there; elsewhere it is idle. The invariant of
  the launch holds the two accumulators at these contents from the first point on.
-/
import proofs.«429733_j73710228734579_1_alg».proof.Proof.K.PoolRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether or not it was fetched there; one
    statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The reset runs at the first point only, the classifier at the last only. -/
theorem hcond2_0 : ∀ t : Fin cfg2.N, cond2_0 (grid2.coords t) ↔ t.val % 50 = 0 :=
  (by decide +kernel : ∀ t : Fin grid2.N, cond2_0 (grid2.coords t) ↔ t.val % 50 = 0)
theorem hcond2_1 : ∀ t : Fin cfg2.N, cond2_1 (grid2.coords t) ↔ t.val % 50 = 49 :=
  (by decide +kernel : ∀ t : Fin grid2.N, cond2_1 (grid2.coords t) ↔ t.val % 50 = 49)

/-- The input windows are never idle; the output window is idle, and not written back, except at the last point. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-- The two scratch accumulators, as whole buffers. -/
abbrev scM0 : Memref sig .tc .vmem S500x64 .f32 := Memref.whole cc2_scratch0
abbrev scM1 : Memref sig .tc .vmem S500x1 .f32 := Memref.whole cc2_scratch1

/-- THE ACCUMULATION: the feature sums and the node counts after the body at position n. -/
def acc2 (c : Dev nD) : (n : ℕ) → n < cfg2.N → Vec F S500x64 .f32 × Vec F S500x1 .f32
  | 0, hn => (k2_pay4 (iblk2 V c 0 ⟨0, hn⟩) (iblk2 V c 1 ⟨0, hn⟩) k2_pay1, k2_pay5 (iblk2 V c 1 ⟨0, hn⟩) k2_pay2)
  | n + 1, hn => (k2_pay4 (iblk2 V c 0 ⟨n + 1, hn⟩) (iblk2 V c 1 ⟨n + 1, hn⟩) (acc2 c n (Nat.lt_of_succ_lt hn)).1,
      k2_pay5 (iblk2 V c 1 ⟨n + 1, hn⟩) (acc2 c n (Nat.lt_of_succ_lt hn)).2)

theorem acc2_zero (c : Dev nD) (t : Fin cfg2.N) (hz : t.val = 0) :
    acc2 V c t.val t.isLt = (k2_pay4 (iblk2 V c 0 t) (iblk2 V c 1 t) k2_pay1, k2_pay5 (iblk2 V c 1 t) k2_pay2) := by
  obtain ⟨n, hn⟩ := t
  cases n with
  | zero => rfl
  | succ n => exact absurd hz (Nat.succ_ne_zero n)

theorem acc2_pos (c : Dev nD) (t : Fin cfg2.N) (hz : t.val ≠ 0) :
    acc2 V c t.val t.isLt = (k2_pay4 (iblk2 V c 0 t) (iblk2 V c 1 t) (acc2 V c (t.val - 1) (Nat.lt_of_le_of_lt (Nat.sub_le _ _) t.isLt)).1,
      k2_pay5 (iblk2 V c 1 t) (acc2 V c (t.val - 1) (Nat.lt_of_le_of_lt (Nat.sub_le _ _) t.isLt)).2) := by
  obtain ⟨n, hn⟩ := t
  cases n with
  | zero => exact absurd rfl hz
  | succ n => rfl

/-- The scoped buffers of the core that are neither a staging buffer of this launch nor one of its two accumulators. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- The invariant of a launch that carries nothing, with the two accumulators taken out of the scoped rest. -/
theorem PhiA2_eq (c : Dev nD) :
    (Pipeline.ΦA spec2 c : sProp 𝕄)
      = iprop((((∃ d, owns (c : Thread nD τ) scM0 fullShare d) ∗ (∃ d, owns (c : Thread nD τ) scM1 fullShare d)) ∗ rest2 c) ∗ (∃ r, prngReg c r)) := by
  unfold Pipeline.ΦA
  rw [Pipeline.scopedRest_split_of_list spec2 c [cc2_scratch0, cc2_scratch1] (by decide) (by decide)]
  simp only [scM0, scM1, owns_whole, Idealize.SL.BI.bigSepL_cons_cons, Idealize.SL.BI.bigSepL_singleton]
  rfl

/-- The launch's invariant before position n: before the first point nothing is known of the accumulators; afterwards
    they hold what the point before left. -/
def PhiS2 (c : Dev nD) : (n : ℕ) → n ≤ cfg2.N → sProp 𝕄
  | 0, _ => Pipeline.ΦA spec2 c
  | n + 1, hn => iprop(((owns (c : Thread nD τ) scM0 fullShare (acc2 V c n hn).1 ∗ owns (c : Thread nD τ) scM1 fullShare (acc2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(((owns (c : Thread nD τ) scM0 fullShare (acc2 V c n hn).1 ∗ owns (c : Thread nD τ) scM1 fullShare (acc2 V c n hn).2) ∗ rest2 c) ∗ (∃ r, prngReg c r)) := rfl

theorem PhiS2_pos (c : Dev nD) (n : ℕ) (h : n ≤ cfg2.N) (hz : n ≠ 0) :
    PhiS2 V c n h = iprop(((owns (c : Thread nD τ) scM0 fullShare (acc2 V c (n - 1) (by omega)).1 ∗ owns (c : Thread nD τ) scM1 fullShare (acc2 V c (n - 1) (by omega)).2) ∗ rest2 c) ∗ (∃ r, prngReg c r)) := by
  cases n with
  | zero => exact absurd rfl hz
  | succ n => rfl

/-- The launch's proof data: the arrays as the launch finds them; after the body at point t each input buffer at its
    block and the output buffer at the classifier of the accumulators as they then stand (read only at the last
    point, where the block is stored and written back); the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay6 (acc2 V c t.val t.isLt).1 (acc2 V c t.val t.isLt).2 (iblk2 V c 2 t) (iblk2 V c 3 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay6 (acc2 V c t.val t.isLt).1 (acc2 V c t.val t.isLt).2 (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
/-- The body at any point: which of the three runs applies is decided by the point's position; the invariant hands
    the body the accumulators at what the point before left (at anything at the first point) and takes them back at
    this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  by_cases h1 : t.val % 50 = 49
  · -- the last point: the accumulators updated, the output block stored
    have h0 : ¬t.val % 50 = 0 := by omega
    have hz : t.val ≠ 0 := by omega
    rw [show (dat2 V c).leavesExact 4 t = owns (c : Thread nD τ) (st2_4 t) fullShare ((dat2 V c).after 4 t) from by
      unfold Dat.leavesExact; rw [liveAt2_4 t ((hcond2_1 t).mpr h1)], after2_4]
    rw [acc2_pos V c t hz, PhiS2_castSucc V c t, PhiS2_pos V c _ _ hz]
    dsimp only
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (run2_last c Set.univ (grid2.coords t) _ _ _ _ _ _ _ _ _ _ _ _ _ _ (fun h => h0 ((hcond2_0 t).mp h)) ((hcond2_1 t).mpr h1)
      (iblk2 V c 0 t) (iblk2 V c 1 t) (iblk2 V c 2 t) (iblk2 V c 3 t) _ _ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    iexact H4
  · rw [Dat.leavesExact_idle (dat2 V c) 4 t (idleAt2_4 t (fun h => h1 ((hcond2_1 t).mp h))) (noFlush2_4 t (fun h => h1 ((hcond2_1 t).mp h)))]
    by_cases h0 : t.val % 50 = 0
    · -- the first point: the accumulators zeroed, then updated
      have hz : t.val = 0 := by omega
      rw [acc2_zero V c t hz, PhiS2_castSucc V c t, PhiS2_zero V c _ _ hz, PhiA2_eq]
      dsimp only
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (run2_first c Set.univ (grid2.coords t) _ _ _ _ _ _ _ _ _ _ _ _ _ _ ((hcond2_0 t).mpr h0) (fun h => h1 ((hcond2_1 t).mp h))
        (iblk2 V c 0 t) (iblk2 V c 1 t) (iblk2 V c 2 t) (iblk2 V c 3 t) ((dat2 V c).before 4 t d4) _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexists d4; iexact H4
    · -- a middle point: the accumulators updated
      have hz : t.val ≠ 0 := by omega
      rw [acc2_pos V c t hz, PhiS2_castSucc V c t, PhiS2_pos V c _ _ hz]
      dsimp only
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (run2_mid c Set.univ (grid2.coords t) _ _ _ _ _ _ _ _ _ _ _ _ _ _ (fun h => h0 ((hcond2_0 t).mp h)) (fun h => h1 ((hcond2_1 t).mp h))
        (iblk2 V c 0 t) (iblk2 V c 1 t) (iblk2 V c 2 t) (iblk2 V c 3 t) ((dat2 V c).before 4 t d4) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexists d4; iexact H4

/-- The body obligation of the launch, at every point. -/
theorem body_obligation2 (c : Dev nD) : BodyObligation (dat2 (F := F) V c) (defs₀ (F := F)) Variants.none () Set.univ := fun t => by
  rw [bigSep_W2, bigSep_W2]
  exact sound_body2 V c t

/-- What the launch is handed is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped buffers back: what the accumulators hold is forgotten. -/
theorem hout2 (c : Dev nD) : (dat2 V c).Φ (Fin.last cfg2.N) ⊢ Pipeline.ΦA spec2 c := by
  have hne : (Fin.last cfg2.N).val ≠ 0 := by rw [Fin.val_last]; have : cfg2.N = 50 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

end Cert.Kernel.Hand

end
-- ==== Proof.K.Run.lean ====
/-
  The whole program as a run of six segments — host operations, the first linear-and-relu launch, host operations, the
  second launch, one host operation, the pooling launch — at any float instance.

  The contents of the unscoped buffers at each segment boundary are a fold from the launch memory: a stretch of host
  operations applies them; a launch leaves its input arrays as entered and its output array at what its write-backs
  leave. Every weakly fair execution terminates, and every final memory holds each unscoped buffer at the last
  boundary's contents. Read at the arguments, which no segment writes, that is the frame; read at the result buffer
  it is the value the pooling launch leaves.
-/
import proofs.«429733_j73710228734579_1_alg».proof.Proof.K.Lin0
import proofs.«429733_j73710228734579_1_alg».proof.Proof.K.Lin1
import proofs.«429733_j73710228734579_1_alg».proof.Proof.K.Pool
import proofs.«429733_j73710228734579_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the first stretch of host operations (launch 0's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At launch 0's exit: its arrays at what the launch leaves (the inputs as entered, the output's write-backs folded),
    every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev X2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = E1 m ρ c b :=
  fun b hb => W2_of_ne m ρ c b fun w e => hb (Finset.mem_image.mpr ⟨w, Finset.mem_univ _, e⟩)

/-- After the second stretch of host operations (launch 1's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At launch 1's exit: its arrays at what the launch leaves (the inputs as entered, the output's write-backs folded),
    every other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev X4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = X4 m ρ c (Pipeline.arrRef spec1 w) :=
  (W4_arr m ρ c w).symm
theorem hrest1 (c : Dev nD) : ∀ b, b ∉ Finset.univ.image (Pipeline.arrRef spec1) → X4 m ρ c b = E3 m ρ c b :=
  fun b hb => W4_of_ne m ρ c b fun w e => hb (Finset.mem_image.mpr ⟨w, Finset.mem_univ _, e⟩)

/-- After the third stretch (launch 2's entry). -/
abbrev W5 : Dev nD → Valuation τ sig (Elt F) := fun c => StableHlo.after hostOps2 (W4 m ρ c)
abbrev E5 : (c : Dev nD) → (b : Ref sig .tc) → Buf (Elt F) ((c : Thread nD τ).loc b) := fun c b => W5 m ρ c b
/-- At launch 2's exit: its arrays at what the launch leaves (the inputs as entered, the output's write-backs folded),
    every other buffer as entered. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev X6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = X6 m ρ c (Pipeline.arrRef spec2 w) :=
  (W6_arr m ρ c w).symm
theorem hrest2 (c : Dev nD) : ∀ b, b ∉ Finset.univ.image (Pipeline.arrRef spec2) → X6 m ρ c b = E5 m ρ c b :=
  fun b hb => W6_of_ne m ρ c b fun w e => hb (Finset.mem_image.mpr ⟨w, Finset.mem_univ _, e⟩)

/-! The arguments end as launched: no host operation and no launch writes one (a launch reads it through an input
    window or bypasses it), so the fold at an argument's buffer walks back to the launch memory. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (E1 m ρ) c).arrAt_in 0 rfl _).trans (A_eq0 (E1 m ρ) c 0))
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 2).trans (((dat0 (E1 m ρ) c).arrAt_in 2 rfl _).trans (A_eq0 (E1 m ρ) c 2))
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := (W4_arr m ρ c 2).trans (((dat1 (E3 m ρ) c).arrAt_in 2 rfl _).trans (A_eq1 (E3 m ρ) c 2))
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := (W6_arr m ρ c 2).trans (((dat2 (E5 m ρ) c).arrAt_in 2 rfl _).trans (A_eq2 (E5 m ρ) c 2))
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-- Every launch's proof data, each at its launch's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- Launch 0 over the thread state: entered from every unscoped buffer at `W1`, left at `W2`. Its arrays are
    split out of the unscoped buffers and put back at the contents the launch leaves; the generator register goes into
    the launch's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W3`, left at `W4`. Its arrays are
    split out of the unscoped buffers and put back at the contents the launch leaves; the generator register goes into
    the launch's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ Rr c)
  post c := iprop(StableHlo.held (c : Thread nD τ) (Pipeline.ucRefs τ sig) (W4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (X4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W5`, left at `W6`. Its arrays are
    split out of the unscoped buffers and put back at the contents the launch leaves; the generator register goes into
    the launch's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (W5 m ρ c) ∗ Rr c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    exact (hout2 (E5 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (X6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The six segments in order. -/
abbrev segsH : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- The program is the run of the segments. -/
theorem main_run (c : Dev nD) : main (F := F) c = Pipeline.Seg.run (segsH m ρ) := (main_chain c).trans (by chain_rfl)

set_option backward.isDefEq.respectTransparency.types false in
/-- THE RUN: from any memory with zero counters every weakly fair execution of the program terminates, nothing
    faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c)⟩) (run_all m ρ)

end Cert.Kernel.Hand

end
-- ==== Proof.KI.Lin0.lean ====
/-
  The first linear-and-relu launch, one grid point at a time, at any float instance.

  The launch runs ten grid points; at point t the body is handed rows 5000·t … 5000·t + 4999 of the node features
  and of the neighbour sums, the whole weight matrix and the bias row, and stores one value — the body's arithmetic
  of those four blocks — over the whole output block, which is written back at every point. Nothing is carried from
  one point to the next. Stated at a parameter V: the contents of the buffers when the launch is entered.
-/
import proofs.«429733_j73710228734579_1_alg».proof.Proof.Gen.KernelIdeal.Launch
import proofs.«429733_j73710228734579_1_alg».proof.Proof.Gen.KernelIdeal.Skeleton
import proofs.«429733_j73710228734579_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not it was fetched there (an
    unfetched window's block index has not moved); one statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rN0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-- What the body leaves in the output block: its one store, of the body's arithmetic of the four input blocks. -/
def out0_4 (x0 x1 : Vec F S5000x64 .f32) (x2 : Vec F S64x64 .f32) (x3 : Vec F S1x64 .f32) : Vec F S5000x64 .f32 :=
  View.canon [⟨rN0, k0_pay1 (View.ld x0 rN0) (View.ld x1 rN0) (View.ld x2 rW0) (View.ld x3 rB0)⟩]

/-- The one store covers the block. -/
theorem cover0_4 (p0 : Vec F S5000x64 .f32) (y : S5000x64.Idx) :
    ∃ pc ∈ ([⟨rN0, p0⟩] : List (View.Piece (Elt F) S5000x64 .f32)), y ∈ pc.1.set :=
  View.cover_of_tiled [⟨rN0, p0⟩] S5000x64.size (by rfl) y

set_option maxHeartbeats 1000000 in
/-- The body on whole staging buffers: the four inputs come back as they were, the output holds `out0_4` of them. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S5000x64 .f32) (harg5 : arg5.IsWhole)
    (x0 x1 : Vec F S5000x64 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__lin_relu_kernel i arg1 harg1 arg2 harg2 arg3 harg3 arg4 harg4 arg5 harg5) K := by
  simp only [cc0__lin_relu_kernel_eq_skeleton]; unfold cc0__lin_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The launch's proof data: the arrays as the launch finds them; after the body at point t each input buffer at its
    block and the output buffer at `out0_4` of the four input blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the launch, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Lin1.lean ====
/-
  The second linear-and-relu launch, one grid point at a time, at any float instance.

  The launch runs ten grid points; at point t the body is handed rows 5000·t … 5000·t + 4999 of the node features
  and of the neighbour sums, the whole weight matrix and the bias row, and stores one value — the body's arithmetic
  of those four blocks — over the whole output block, which is written back at every point. Nothing is carried from
  one point to the next. Stated at a parameter V: the contents of the buffers when the launch is entered.
-/
import proofs.«429733_j73710228734579_1_alg».proof.Proof.Gen.KernelIdeal.Launch
import proofs.«429733_j73710228734579_1_alg».proof.Proof.Gen.KernelIdeal.Skeleton
import proofs.«429733_j73710228734579_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not it was fetched there (an
    unfetched window's block index has not moved); one statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rN1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-- What the body leaves in the output block: its one store, of the body's arithmetic of the four input blocks. -/
def out1_4 (x0 x1 : Vec F S5000x64 .f32) (x2 : Vec F S64x64 .f32) (x3 : Vec F S1x64 .f32) : Vec F S5000x64 .f32 :=
  View.canon [⟨rN1, k1_pay1 (View.ld x0 rN1) (View.ld x1 rN1) (View.ld x2 rW1) (View.ld x3 rB1)⟩]

/-- The one store covers the block. -/
theorem cover1_4 (p0 : Vec F S5000x64 .f32) (y : S5000x64.Idx) :
    ∃ pc ∈ ([⟨rN1, p0⟩] : List (View.Piece (Elt F) S5000x64 .f32)), y ∈ pc.1.set :=
  View.cover_of_tiled [⟨rN1, p0⟩] S5000x64.size (by rfl) y

set_option maxHeartbeats 1000000 in
/-- The body on whole staging buffers: the four inputs come back as they were, the output holds `out1_4` of them. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S5000x64 .f32) (harg5 : arg5.IsWhole)
    (x0 x1 : Vec F S5000x64 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__lin_relu_kernel i arg1 harg1 arg2 harg2 arg3 harg3 arg4 harg4 arg5 harg5) K := by
  simp only [cc1__lin_relu_kernel_eq_skeleton]; unfold cc1__lin_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The launch's proof data: the arrays as the launch finds them; after the body at point t each input buffer at its
    block and the output buffer at `out1_4` of the four input blocks; nothing carried, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the launch, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.PoolRuns.lean ====
/-
  The pooling body, run at a grid point, at any float instance.

  The launch runs fifty grid points; at point k the body is handed rows 1000·k … 1000·k + 999 of the node features and
  of the node-to-graph ids. Two accumulators are kept from point to point in scratch memory: the per-graph feature sums
  and the per-graph node counts. At the first point the body zeroes both, at every point it adds the block's
  contribution, and at the last point it stores the classifier of the finished sums and counts over the whole output
  block. Three runs of the body, one per kind of point.
-/
import proofs.«429733_j73710228734579_1_alg».proof.Proof.Gen.KernelIdeal.Launch
import proofs.«429733_j73710228734579_1_alg».proof.Proof.Gen.KernelIdeal.Skeleton
import proofs.«429733_j73710228734579_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The steps of the pooling body that depend on the grid point: the reset at the first point, -/
abbrev cond2_0 (i : grid2.Coords) : Prop := (Scalar.cmpi .ne (Scalar.extui (Scalar.cmpi .eq (BitVec.ofNat 32 (i 0).val) 0#32)) 0#32) = 1#1
/-- and the classifier at the last. -/
abbrev cond2_1 (i : grid2.Coords) : Prop := k2_cond2 i = 1#1

/-- A buffer whose last store went through the whole-block rectangle reads as that store's value. -/
theorem read_writes_cons_whole {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self .., View.mem_set_unit_zero h inb y⟩),
    View.canon_cons_unit_zero h inb]

theorem hz2 : (![0, 0] : Fin 2 → Nat) = fun _ => 0 := by funext a; fin_cases a <;> rfl

set_option maxHeartbeats 1000000 in
/-- At the first point the body zeroes both accumulators and adds the block's contribution to them; the output block
    is not touched. -/
theorem run2_first (c : Dev nD) (E : Set ℕ) (i : grid2.Coords)
    (arg1 : Memref sig .tc .vmem S1000x64 .f32) (harg1 : arg1.IsWhole) (arg2 : Memref sig .tc .vmem S1000x1 .i32) (harg2 : arg2.IsWhole)
    (arg3 : Memref sig .tc .vmem S64x10 .f32) (harg3 : arg3.IsWhole) (arg4 : Memref sig .tc .vmem S1x10 .f32) (harg4 : arg4.IsWhole)
    (arg5 : Memref sig .tc .vmem S500x10 .f32) (harg5 : arg5.IsWhole) (arg6 : Memref sig .tc .vmem S500x64 .f32) (harg6 : arg6.IsWhole)
    (arg7 : Memref sig .tc .vmem S500x1 .f32) (harg7 : arg7.IsWhole)
    (hc0 : cond2_0 i) (hc1 : ¬cond2_1 i)
    (x0 : Vec F S1000x64 .f32) (b0 : Vec F S1000x1 .i32) (x2 : Vec F S64x10 .f32) (x3 : Vec F S1x10 .f32) (o : Vec F S500x10 .f32)
    (K : PUnit → sProp 𝕄) :
    iprop(owns (c : Thread nD τ) arg1 fullShare x0 ∗ owns (c : Thread nD τ) arg2 fullShare b0 ∗ owns (c : Thread nD τ) arg3 fullShare x2 ∗ owns (c : Thread nD τ) arg4 fullShare x3 ∗ owns (c : Thread nD τ) arg5 fullShare o
        ∗ (∃ s, owns (c : Thread nD τ) arg6 fullShare s) ∗ (∃ s, owns (c : Thread nD τ) arg7 fullShare s)
        ∗ (iprop(owns (c : Thread nD τ) arg1 fullShare x0 ∗ owns (c : Thread nD τ) arg2 fullShare b0 ∗ owns (c : Thread nD τ) arg3 fullShare x2 ∗ owns (c : Thread nD τ) arg4 fullShare x3 ∗ owns (c : Thread nD τ) arg5 fullShare o
            ∗ owns (c : Thread nD τ) arg6 fullShare (k2_pay4 x0 b0 k2_pay1) ∗ owns (c : Thread nD τ) arg7 fullShare (k2_pay5 b0 k2_pay2)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%s5, %f5, -, H5⟩, ⟨%s6, %f6, -, H6⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_cons_whole (S := S500x64) _ _ hz2 _ _ _).trans ?_
    sl_unfold_words
    simp only [View.readAt_eq_ld, View.ld_unit_zero (S := S1000x64) hz2, View.ld_unit_zero (S := S1000x1) hz2, View.ld_unit_zero (S := S500x64) hz2, View.ld_unit_zero (S := S500x1) hz2, View.ld_unit_zero (S := S64x10) hz2, View.ld_unit_zero (S := S1x10) hz2, View.readCov_unit_zero (S := S500x64) _ hz2, View.readCov_unit_zero (S := S500x1) _ hz2]
  iexists _; isplitr
  swap; · iexact H6
  ipureintro
  refine (read_writes_cons_whole (S := S500x1) _ _ hz2 _ _ _).trans ?_
  sl_unfold_words
  simp only [View.readAt_eq_ld, View.ld_unit_zero (S := S1000x64) hz2, View.ld_unit_zero (S := S1000x1) hz2, View.ld_unit_zero (S := S500x64) hz2, View.ld_unit_zero (S := S500x1) hz2, View.ld_unit_zero (S := S64x10) hz2, View.ld_unit_zero (S := S1x10) hz2, View.readCov_unit_zero (S := S500x64) _ hz2, View.readCov_unit_zero (S := S500x1) _ hz2]

set_option maxHeartbeats 1000000 in
/-- At a middle point the body adds the block's contribution to both accumulators; the output block is not touched. -/
theorem run2_mid (c : Dev nD) (E : Set ℕ) (i : grid2.Coords)
    (arg1 : Memref sig .tc .vmem S1000x64 .f32) (harg1 : arg1.IsWhole) (arg2 : Memref sig .tc .vmem S1000x1 .i32) (harg2 : arg2.IsWhole)
    (arg3 : Memref sig .tc .vmem S64x10 .f32) (harg3 : arg3.IsWhole) (arg4 : Memref sig .tc .vmem S1x10 .f32) (harg4 : arg4.IsWhole)
    (arg5 : Memref sig .tc .vmem S500x10 .f32) (harg5 : arg5.IsWhole) (arg6 : Memref sig .tc .vmem S500x64 .f32) (harg6 : arg6.IsWhole)
    (arg7 : Memref sig .tc .vmem S500x1 .f32) (harg7 : arg7.IsWhole)
    (hc0 : ¬cond2_0 i) (hc1 : ¬cond2_1 i)
    (x0 : Vec F S1000x64 .f32) (b0 : Vec F S1000x1 .i32) (x2 : Vec F S64x10 .f32) (x3 : Vec F S1x10 .f32) (o : Vec F S500x10 .f32)
    (s : Vec F S500x64 .f32) (cn : Vec F S500x1 .f32) (K : PUnit → sProp 𝕄) :
    iprop(owns (c : Thread nD τ) arg1 fullShare x0 ∗ owns (c : Thread nD τ) arg2 fullShare b0 ∗ owns (c : Thread nD τ) arg3 fullShare x2 ∗ owns (c : Thread nD τ) arg4 fullShare x3 ∗ owns (c : Thread nD τ) arg5 fullShare o
        ∗ owns (c : Thread nD τ) arg6 fullShare s ∗ owns (c : Thread nD τ) arg7 fullShare cn
        ∗ (iprop(owns (c : Thread nD τ) arg1 fullShare x0 ∗ owns (c : Thread nD τ) arg2 fullShare b0 ∗ owns (c : Thread nD τ) arg3 fullShare x2 ∗ owns (c : Thread nD τ) arg4 fullShare x3 ∗ owns (c : Thread nD τ) arg5 fullShare o
            ∗ owns (c : Thread nD τ) arg6 fullShare (k2_pay4 x0 b0 s) ∗ owns (c : Thread nD τ) arg7 fullShare (k2_pay5 b0 cn)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_cons_whole (S := S500x64) _ _ hz2 _ _ _).trans ?_
    try sl_unfold_words
    simp only [View.readAt_eq_ld, View.ld_unit_zero (S := S1000x64) hz2, View.ld_unit_zero (S := S1000x1) hz2, View.ld_unit_zero (S := S500x64) hz2, View.ld_unit_zero (S := S500x1) hz2, View.ld_unit_zero (S := S64x10) hz2, View.ld_unit_zero (S := S1x10) hz2, View.readCov_unit_zero (S := S500x64) _ hz2, View.readCov_unit_zero (S := S500x1) _ hz2]
  iexists _; isplitr
  swap; · iexact H6
  ipureintro
  refine (read_writes_cons_whole (S := S500x1) _ _ hz2 _ _ _).trans ?_
  try sl_unfold_words
  simp only [View.readAt_eq_ld, View.ld_unit_zero (S := S1000x64) hz2, View.ld_unit_zero (S := S1000x1) hz2, View.ld_unit_zero (S := S500x64) hz2, View.ld_unit_zero (S := S500x1) hz2, View.ld_unit_zero (S := S64x10) hz2, View.ld_unit_zero (S := S1x10) hz2, View.readCov_unit_zero (S := S500x64) _ hz2, View.readCov_unit_zero (S := S500x1) _ hz2]

set_option maxHeartbeats 1000000 in
/-- At the last point the body adds the block's contribution to both accumulators and stores the classifier of the
    finished sums and counts over the whole output block. -/
theorem run2_last (c : Dev nD) (E : Set ℕ) (i : grid2.Coords)
    (arg1 : Memref sig .tc .vmem S1000x64 .f32) (harg1 : arg1.IsWhole) (arg2 : Memref sig .tc .vmem S1000x1 .i32) (harg2 : arg2.IsWhole)
    (arg3 : Memref sig .tc .vmem S64x10 .f32) (harg3 : arg3.IsWhole) (arg4 : Memref sig .tc .vmem S1x10 .f32) (harg4 : arg4.IsWhole)
    (arg5 : Memref sig .tc .vmem S500x10 .f32) (harg5 : arg5.IsWhole) (arg6 : Memref sig .tc .vmem S500x64 .f32) (harg6 : arg6.IsWhole)
    (arg7 : Memref sig .tc .vmem S500x1 .f32) (harg7 : arg7.IsWhole)
    (hc0 : ¬cond2_0 i) (hc1 : cond2_1 i)
    (x0 : Vec F S1000x64 .f32) (b0 : Vec F S1000x1 .i32) (x2 : Vec F S64x10 .f32) (x3 : Vec F S1x10 .f32)
    (s : Vec F S500x64 .f32) (cn : Vec F S500x1 .f32) (K : PUnit → sProp 𝕄) :
    iprop(owns (c : Thread nD τ) arg1 fullShare x0 ∗ owns (c : Thread nD τ) arg2 fullShare b0 ∗ owns (c : Thread nD τ) arg3 fullShare x2 ∗ owns (c : Thread nD τ) arg4 fullShare x3 ∗ (∃ o, owns (c : Thread nD τ) arg5 fullShare o)
        ∗ owns (c : Thread nD τ) arg6 fullShare s ∗ owns (c : Thread nD τ) arg7 fullShare cn
        ∗ (iprop(owns (c : Thread nD τ) arg1 fullShare x0 ∗ owns (c : Thread nD τ) arg2 fullShare b0 ∗ owns (c : Thread nD τ) arg3 fullShare x2 ∗ owns (c : Thread nD τ) arg4 fullShare x3 ∗ owns (c : Thread nD τ) arg5 fullShare (k2_pay6 (k2_pay4 x0 b0 s) (k2_pay5 b0 cn) x2 x3)
            ∗ owns (c : Thread nD τ) arg6 fullShare (k2_pay4 x0 b0 s) ∗ owns (c : Thread nD τ) arg7 fullShare (k2_pay5 b0 cn)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%o4, %f4, -, H4⟩, ⟨%f5, %hf5, H5⟩, ⟨%f6, %hf6, H6⟩, Hk⟩
  subst hf0; subst hf1; subst hf2; subst hf3; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_cons_whole (S := S500x10) _ _ hz2 _ _ _).trans ?_
    try sl_unfold_words
    simp only [View.readAt_eq_ld, View.ld_unit_zero (S := S1000x64) hz2, View.ld_unit_zero (S := S1000x1) hz2, View.ld_unit_zero (S := S500x64) hz2, View.ld_unit_zero (S := S500x1) hz2, View.ld_unit_zero (S := S64x10) hz2, View.ld_unit_zero (S := S1x10) hz2, View.readCov_unit_zero (S := S500x64) _ hz2, View.readCov_unit_zero (S := S500x1) _ hz2]
  isplitl [H5]
  · iexists _; isplitr
    swap; · iexact H5
    ipureintro
    refine (read_writes_cons_whole (S := S500x64) _ _ hz2 _ _ _).trans ?_
    try sl_unfold_words
    simp only [View.readAt_eq_ld, View.ld_unit_zero (S := S1000x64) hz2, View.ld_unit_zero (S := S1000x1) hz2, View.ld_unit_zero (S := S500x64) hz2, View.ld_unit_zero (S := S500x1) hz2, View.ld_unit_zero (S := S64x10) hz2, View.ld_unit_zero (S := S1x10) hz2, View.readCov_unit_zero (S := S500x64) _ hz2, View.readCov_unit_zero (S := S500x1) _ hz2]
  iexists _; isplitr
  swap; · iexact H6
  ipureintro
  refine (read_writes_cons_whole (S := S500x1) _ _ hz2 _ _ _).trans ?_
  try sl_unfold_words
  simp only [View.readAt_eq_ld, View.ld_unit_zero (S := S1000x64) hz2, View.ld_unit_zero (S := S1000x1) hz2, View.ld_unit_zero (S := S500x64) hz2, View.ld_unit_zero (S := S500x1) hz2, View.ld_unit_zero (S := S64x10) hz2, View.ld_unit_zero (S := S1x10) hz2, View.readCov_unit_zero (S := S500x64) _ hz2, View.readCov_unit_zero (S := S500x1) _ hz2]

end Cert.KernelIdeal.Hand

end
-- ==== Proof.KI.Pool.lean ====
/-
  The pooling launch, one grid point at a time, at any float instance.

  What the two scratch accumulators hold after each point is a recursion on the point: after the first point the
  block's contribution over zeros, after every later point the block's contribution over what the point before left.
  The output block is stored at the last point only and written back there; elsewhere it is idle. The invariant of
  the launch holds the two accumulators at these contents from the first point on.
-/
import proofs.«429733_j73710228734579_1_alg».proof.Proof.KI.PoolRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether or not it was fetched there; one
    statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The reset runs at the first point only, the classifier at the last only. -/
theorem hcond2_0 : ∀ t : Fin cfg2.N, cond2_0 (grid2.coords t) ↔ t.val % 50 = 0 :=
  (by decide +kernel : ∀ t : Fin grid2.N, cond2_0 (grid2.coords t) ↔ t.val % 50 = 0)
theorem hcond2_1 : ∀ t : Fin cfg2.N, cond2_1 (grid2.coords t) ↔ t.val % 50 = 49 :=
  (by decide +kernel : ∀ t : Fin grid2.N, cond2_1 (grid2.coords t) ↔ t.val % 50 = 49)

/-- The input windows are never idle; the output window is idle, and not written back, except at the last point. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-- The two scratch accumulators, as whole buffers. -/
abbrev scM0 : Memref sig .tc .vmem S500x64 .f32 := Memref.whole cc2_scratch0
abbrev scM1 : Memref sig .tc .vmem S500x1 .f32 := Memref.whole cc2_scratch1

/-- THE ACCUMULATION: the feature sums and the node counts after the body at position n. -/
def acc2 (c : Dev nD) : (n : ℕ) → n < cfg2.N → Vec F S500x64 .f32 × Vec F S500x1 .f32
  | 0, hn => (k2_pay4 (iblk2 V c 0 ⟨0, hn⟩) (iblk2 V c 1 ⟨0, hn⟩) k2_pay1, k2_pay5 (iblk2 V c 1 ⟨0, hn⟩) k2_pay2)
  | n + 1, hn => (k2_pay4 (iblk2 V c 0 ⟨n + 1, hn⟩) (iblk2 V c 1 ⟨n + 1, hn⟩) (acc2 c n (Nat.lt_of_succ_lt hn)).1,
      k2_pay5 (iblk2 V c 1 ⟨n + 1, hn⟩) (acc2 c n (Nat.lt_of_succ_lt hn)).2)

theorem acc2_zero (c : Dev nD) (t : Fin cfg2.N) (hz : t.val = 0) :
    acc2 V c t.val t.isLt = (k2_pay4 (iblk2 V c 0 t) (iblk2 V c 1 t) k2_pay1, k2_pay5 (iblk2 V c 1 t) k2_pay2) := by
  obtain ⟨n, hn⟩ := t
  cases n with
  | zero => rfl
  | succ n => exact absurd hz (Nat.succ_ne_zero n)

theorem acc2_pos (c : Dev nD) (t : Fin cfg2.N) (hz : t.val ≠ 0) :
    acc2 V c t.val t.isLt = (k2_pay4 (iblk2 V c 0 t) (iblk2 V c 1 t) (acc2 V c (t.val - 1) (Nat.lt_of_le_of_lt (Nat.sub_le _ _) t.isLt)).1,
      k2_pay5 (iblk2 V c 1 t) (acc2 V c (t.val - 1) (Nat.lt_of_le_of_lt (Nat.sub_le _ _) t.isLt)).2) := by
  obtain ⟨n, hn⟩ := t
  cases n with
  | zero => exact absurd rfl hz
  | succ n => rfl

/-- The scoped buffers of the core that are neither a staging buffer of this launch nor one of its two accumulators. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- The invariant of a launch that carries nothing, with the two accumulators taken out of the scoped rest. -/
theorem PhiA2_eq (c : Dev nD) :
    (Pipeline.ΦA spec2 c : sProp 𝕄)
      = iprop((((∃ d, owns (c : Thread nD τ) scM0 fullShare d) ∗ (∃ d, owns (c : Thread nD τ) scM1 fullShare d)) ∗ rest2 c) ∗ (∃ r, prngReg c r)) := by
  unfold Pipeline.ΦA
  rw [Pipeline.scopedRest_split_of_list spec2 c [cc2_scratch0, cc2_scratch1] (by decide) (by decide)]
  simp only [scM0, scM1, owns_whole, Idealize.SL.BI.bigSepL_cons_cons, Idealize.SL.BI.bigSepL_singleton]
  rfl

/-- The launch's invariant before position n: before the first point nothing is known of the accumulators; afterwards
    they hold what the point before left. -/
def PhiS2 (c : Dev nD) : (n : ℕ) → n ≤ cfg2.N → sProp 𝕄
  | 0, _ => Pipeline.ΦA spec2 c
  | n + 1, hn => iprop(((owns (c : Thread nD τ) scM0 fullShare (acc2 V c n hn).1 ∗ owns (c : Thread nD τ) scM1 fullShare (acc2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(((owns (c : Thread nD τ) scM0 fullShare (acc2 V c n hn).1 ∗ owns (c : Thread nD τ) scM1 fullShare (acc2 V c n hn).2) ∗ rest2 c) ∗ (∃ r, prngReg c r)) := rfl

theorem PhiS2_pos (c : Dev nD) (n : ℕ) (h : n ≤ cfg2.N) (hz : n ≠ 0) :
    PhiS2 V c n h = iprop(((owns (c : Thread nD τ) scM0 fullShare (acc2 V c (n - 1) (by omega)).1 ∗ owns (c : Thread nD τ) scM1 fullShare (acc2 V c (n - 1) (by omega)).2) ∗ rest2 c) ∗ (∃ r, prngReg c r)) := by
  cases n with
  | zero => exact absurd rfl hz
  | succ n => rfl

/-- The launch's proof data: the arrays as the launch finds them; after the body at point t each input buffer at its
    block and the output buffer at the classifier of the accumulators as they then stand (read only at the last
    point, where the block is stored and written back); the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay6 (acc2 V c t.val t.isLt).1 (acc2 V c t.val t.isLt).2 (iblk2 V c 2 t) (iblk2 V c 3 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay6 (acc2 V c t.val t.isLt).1 (acc2 V c t.val t.isLt).2 (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
/-- The body at any point: which of the three runs applies is decided by the point's position; the invariant hands
    the body the accumulators at what the point before left (at anything at the first point) and takes them back at
    this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  by_cases h1 : t.val % 50 = 49
  · -- the last point: the accumulators updated, the output block stored
    have h0 : ¬t.val % 50 = 0 := by omega
    have hz : t.val ≠ 0 := by omega
    rw [show (dat2 V c).leavesExact 4 t = owns (c : Thread nD τ) (st2_4 t) fullShare ((dat2 V c).after 4 t) from by
      unfold Dat.leavesExact; rw [liveAt2_4 t ((hcond2_1 t).mpr h1)], after2_4]
    rw [acc2_pos V c t hz, PhiS2_castSucc V c t, PhiS2_pos V c _ _ hz]
    dsimp only
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (run2_last c Set.univ (grid2.coords t) _ _ _ _ _ _ _ _ _ _ _ _ _ _ (fun h => h0 ((hcond2_0 t).mp h)) ((hcond2_1 t).mpr h1)
      (iblk2 V c 0 t) (iblk2 V c 1 t) (iblk2 V c 2 t) (iblk2 V c 3 t) _ _ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    iexact H4
  · rw [Dat.leavesExact_idle (dat2 V c) 4 t (idleAt2_4 t (fun h => h1 ((hcond2_1 t).mp h))) (noFlush2_4 t (fun h => h1 ((hcond2_1 t).mp h)))]
    by_cases h0 : t.val % 50 = 0
    · -- the first point: the accumulators zeroed, then updated
      have hz : t.val = 0 := by omega
      rw [acc2_zero V c t hz, PhiS2_castSucc V c t, PhiS2_zero V c _ _ hz, PhiA2_eq]
      dsimp only
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (run2_first c Set.univ (grid2.coords t) _ _ _ _ _ _ _ _ _ _ _ _ _ _ ((hcond2_0 t).mpr h0) (fun h => h1 ((hcond2_1 t).mp h))
        (iblk2 V c 0 t) (iblk2 V c 1 t) (iblk2 V c 2 t) (iblk2 V c 3 t) ((dat2 V c).before 4 t d4) _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexists d4; iexact H4
    · -- a middle point: the accumulators updated
      have hz : t.val ≠ 0 := by omega
      rw [acc2_pos V c t hz, PhiS2_castSucc V c t, PhiS2_pos V c _ _ hz]
      dsimp only
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (run2_mid c Set.univ (grid2.coords t) _ _ _ _ _ _ _ _ _ _ _ _ _ _ (fun h => h0 ((hcond2_0 t).mp h)) (fun h => h1 ((hcond2_1 t).mp h))
        (iblk2 V c 0 t) (iblk2 V c 1 t) (iblk2 V c 2 t) (iblk2 V c 3 t) ((dat2 V c).before 4 t d4) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexists d4; iexact H4

/-- The body obligation of the launch, at every point. -/
theorem body_obligation2 (c : Dev nD) : BodyObligation (dat2 (F := F) V c) (defs₀ (F := F)) Variants.none () Set.univ := fun t => by
  rw [bigSep_W2, bigSep_W2]
  exact sound_body2 V c t

/-- What the launch is handed is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped buffers back: what the accumulators hold is forgotten. -/
theorem hout2 (c : Dev nD) : (dat2 V c).Φ (Fin.last cfg2.N) ⊢ Pipeline.ΦA spec2 c := by
  have hne : (Fin.last cfg2.N).val ≠ 0 := by rw [Fin.val_last]; have : cfg2.N = 50 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

end Cert.KernelIdeal.Hand

end
-- ==== Proof.KI.Run.lean ====
/-
  The whole program as a run of six segments — host operations, the first linear-and-relu launch, host operations, the
  second launch, one host operation, the pooling launch — at any float instance.

  The contents of the unscoped buffers at each segment boundary are a fold from the launch memory: a stretch of host
  operations applies them; a launch leaves its input arrays as entered and its output array at what its write-backs
  leave. Every weakly fair execution terminates, and every final memory holds each unscoped buffer at the last
  boundary's contents. Read at the arguments, which no segment writes, that is the frame; read at the result buffer
  it is the value the pooling launch leaves.
-/
import proofs.«429733_j73710228734579_1_alg».proof.Proof.KI.Lin0
import proofs.«429733_j73710228734579_1_alg».proof.Proof.KI.Lin1
import proofs.«429733_j73710228734579_1_alg».proof.Proof.KI.Pool
import proofs.«429733_j73710228734579_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the first stretch of host operations (launch 0's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At launch 0's exit: its arrays at what the launch leaves (the inputs as entered, the output's write-backs folded),
    every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev X2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = E1 m ρ c b :=
  fun b hb => W2_of_ne m ρ c b fun w e => hb (Finset.mem_image.mpr ⟨w, Finset.mem_univ _, e⟩)

/-- After the second stretch of host operations (launch 1's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At launch 1's exit: its arrays at what the launch leaves (the inputs as entered, the output's write-backs folded),
    every other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev X4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = X4 m ρ c (Pipeline.arrRef spec1 w) :=
  (W4_arr m ρ c w).symm
theorem hrest1 (c : Dev nD) : ∀ b, b ∉ Finset.univ.image (Pipeline.arrRef spec1) → X4 m ρ c b = E3 m ρ c b :=
  fun b hb => W4_of_ne m ρ c b fun w e => hb (Finset.mem_image.mpr ⟨w, Finset.mem_univ _, e⟩)

/-- After the third stretch (launch 2's entry). -/
abbrev W5 : Dev nD → Valuation τ sig (Elt F) := fun c => StableHlo.after hostOps2 (W4 m ρ c)
abbrev E5 : (c : Dev nD) → (b : Ref sig .tc) → Buf (Elt F) ((c : Thread nD τ).loc b) := fun c b => W5 m ρ c b
/-- At launch 2's exit: its arrays at what the launch leaves (the inputs as entered, the output's write-backs folded),
    every other buffer as entered. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev X6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = X6 m ρ c (Pipeline.arrRef spec2 w) :=
  (W6_arr m ρ c w).symm
theorem hrest2 (c : Dev nD) : ∀ b, b ∉ Finset.univ.image (Pipeline.arrRef spec2) → X6 m ρ c b = E5 m ρ c b :=
  fun b hb => W6_of_ne m ρ c b fun w e => hb (Finset.mem_image.mpr ⟨w, Finset.mem_univ _, e⟩)

/-! The arguments end as launched: no host operation and no launch writes one (a launch reads it through an input
    window or bypasses it), so the fold at an argument's buffer walks back to the launch memory. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (E1 m ρ) c).arrAt_in 0 rfl _).trans (A_eq0 (E1 m ρ) c 0))
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 2).trans (((dat0 (E1 m ρ) c).arrAt_in 2 rfl _).trans (A_eq0 (E1 m ρ) c 2))
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := (W4_arr m ρ c 2).trans (((dat1 (E3 m ρ) c).arrAt_in 2 rfl _).trans (A_eq1 (E3 m ρ) c 2))
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := (W6_arr m ρ c 2).trans (((dat2 (E5 m ρ) c).arrAt_in 2 rfl _).trans (A_eq2 (E5 m ρ) c 2))
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-- Every launch's proof data, each at its launch's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- Launch 0 over the thread state: entered from every unscoped buffer at `W1`, left at `W2`. Its arrays are
    split out of the unscoped buffers and put back at the contents the launch leaves; the generator register goes into
    the launch's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W3`, left at `W4`. Its arrays are
    split out of the unscoped buffers and put back at the contents the launch leaves; the generator register goes into
    the launch's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ Rr c)
  post c := iprop(StableHlo.held (c : Thread nD τ) (Pipeline.ucRefs τ sig) (W4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (X4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W5`, left at `W6`. Its arrays are
    split out of the unscoped buffers and put back at the contents the launch leaves; the generator register goes into
    the launch's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (W5 m ρ c) ∗ Rr c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    exact (hout2 (E5 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (X6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The six segments in order. -/
abbrev segsH : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- The program is the run of the segments. -/
theorem main_run (c : Dev nD) : main (F := F) c = Pipeline.Seg.run (segsH m ρ) := (main_chain c).trans (by chain_rfl)

set_option backward.isDefEq.respectTransparency.types false in
/-- THE RUN: from any memory with zero counters every weakly fair execution of the program terminates, nothing
    faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c)⟩) (run_all m ρ)

end Cert.KernelIdeal.Hand

end
-- ==== Proof.Spec.lean ====
/-
  Membership of a node in a graph, as the two programs see it: node ids are 32-bit words, graph g is named by the
  word g, and a node whose id names no graph in 0 … 499 belongs to none (its features are dropped from every sum).
-/
import Mathlib.Data.EReal.Basic
import Mathlib.Data.BitVec

noncomputable section

namespace Cert.Spec

/-- 1 when the id word `b` names graph `g`, else 0. -/
def member (b : BitVec 32) (g : Fin 500) : EReal := if b = BitVec.ofNat 32 g.val then 1 else 0

end Cert.Spec

end
-- ==== Proof.KI.Pay.lean ====
/-
  The arithmetic of the three kernel bodies of the idealized kernel, read at an index over the extended reals.

  A linear-and-relu body takes a block of node features x, the matching block of neighbour sums a, a weight
  matrix w and a bias row b, and stores max (Σ_k (x[r,k] + a[r,k]) · w[k,j] + b[0,j]) 0 at (r, j).
  The pooling body turns the block of graph ids into a 0/1 membership matrix (node r belongs to graph g iff its id is
  the word g), adds Σ_r member[r,g] · x[r,d] to the running sums and Σ_r member[r,g] · 1 to the running counts, and
  at the last step stores Σ_d (S[g,d] / max (C[g,0]) 1) · w[d,j] + b[0,j].
  Changes of float format are the identity on the extended reals, and a matrix product into a zero accumulator is
  the plain sum of products.
-/
import proofs.«429733_j73710228734579_1_alg».proof.Proof.Gen.KernelIdeal.Skeleton
import proofs.«429733_j73710228734579_1_alg».proof.Proof.Spec
import Idealize.ShloMosaic.PureOps.Ideal.Laws
import Idealize.ShloMosaic.Lib.ValueIdx
import Idealize.ShloMosaic.Lib.IdealHost
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.Spec

/-! ## The product of a 5000×64 block with a 64×64 matrix: rows against columns -/

theorem lhs_lin_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_lin_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_lin_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_lin_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Into a zero accumulator the product at (r, j) is Σ_k l[r,k] · m[k,j]. -/
theorem matmul_lin_apply (l : FVec Ideal S5000x64 .bf16) (m : FVec Ideal S64x64 .bf16) (r : Fin 5000) (j : Fin 64) :
    matmul dot_S5000x64_S64x64_S5000x64_1_0_0_1_n_n none l m (constant (F := Ideal) S5000x64 .f32 0x00000000#32) (ix2 r j)
      = ∑ k : Fin 64, l (ix2 r k) * m (ix2 k j) := by
  refine (Ideal.matmul_constant_zero_apply dot_S5000x64_S64x64_S5000x64_1_0_0_1_n_n none l m (ix2 r j)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r j) ((contrEquiv1 dot_S5000x64_S64x64_S5000x64_1_0_0_1_n_n 64 rfl rfl).symm k) = ix2 r k := funext fun a => Fin.ext (by
    match a with
    | ⟨0, _⟩ => exact lhs_lin_0 _ _
    | ⟨1, _⟩ => exact (lhs_lin_1 _ _).trans hk)
  have er : dot_S5000x64_S64x64_S5000x64_1_0_0_1_n_n.rhsIdx (ix2 r j) ((contrEquiv1 dot_S5000x64_S64x64_S5000x64_1_0_0_1_n_n 64 rfl rfl).symm k) = ix2 k j := funext fun a => Fin.ext (by
    match a with
    | ⟨0, _⟩ => exact (rhs_lin_0 _ _).trans hk
    | ⟨1, _⟩ => exact rhs_lin_1 _ _)
  rw [el, er]

theorem lin0_apply (x a : Vec Ideal S5000x64 .f32) (w : Vec Ideal S64x64 .f32) (b : Vec Ideal S1x64 .f32)
    (r : Fin 5000) (j : Fin 64) :
    k0_pay1 (F := Ideal) x a w b (ix2 r j)
      = max ((∑ k : Fin 64, (x (ix2 r k) + a (ix2 r k)) * w (ix2 k j)) + b (ix2 (0 : Fin 1) j)) 0 := by
  unfold k0_pay1
  rw [maximumf_apply, addf_apply, broadcast_apply]
  refine congrArg₂ max (congrArg₂ (· + ·) ?_ ?_) Ideal.ofBits_zero_f32
  · refine (matmul_lin_apply _ _ r j).trans ?_
    refine Finset.sum_congr rfl fun k _ => ?_
    rw [truncf_apply, truncf_apply, addf_apply, shapeCast_self]
  · rw [shapeCast_self]
    exact broadcastTo_1b_ab_apply b broadcasts_S1x64_S5000x64 r j

theorem lin1_apply (x a : Vec Ideal S5000x64 .f32) (w : Vec Ideal S64x64 .f32) (b : Vec Ideal S1x64 .f32)
    (r : Fin 5000) (j : Fin 64) :
    k1_pay1 (F := Ideal) x a w b (ix2 r j)
      = max ((∑ k : Fin 64, (x (ix2 r k) + a (ix2 r k)) * w (ix2 k j)) + b (ix2 (0 : Fin 1) j)) 0 := by
  unfold k1_pay1
  rw [maximumf_apply, addf_apply, broadcast_apply]
  refine congrArg₂ max (congrArg₂ (· + ·) ?_ ?_) Ideal.ofBits_zero_f32
  · refine (matmul_lin_apply _ _ r j).trans ?_
    refine Finset.sum_congr rfl fun k _ => ?_
    rw [truncf_apply, truncf_apply, addf_apply, shapeCast_self, shapeCast_self]
  · rw [shapeCast_self]
    exact broadcastTo_1b_ab_apply b broadcasts_S1x64_S5000x64 r j

/-! ## The pooling body -/

theorem zero_sums_apply (i : S500x64.Idx) : k2_pay1 (F := Ideal) i = 0 := by
  unfold k2_pay1
  rw [shapeCast_self, broadcast_apply]
  exact Ideal.ofBits_zero_f32

theorem zero_counts_apply (i : S500x1.Idx) : k2_pay2 (F := Ideal) i = 0 := by
  unfold k2_pay2
  rw [shapeCast_self, broadcast_apply]
  exact Ideal.ofBits_zero_f32

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison bit of two words, widened and read as a signed integer, is 1 when they are equal and 0 otherwise. -/
theorem sitofp_cmpi_eq (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  by_cases h : x = y
  · have hc : IntOp.cmpi .eq x y = 1#1 := by simp [IntOp.cmpi, h]
    have h1 : ((1#1 : BitVec 1).setWidth 32).toInt = 1 := by decide
    rw [hc, if_pos h, h1]
    norm_num
  · have hb : (x == y) = false := beq_eq_false_iff_ne.mpr h
    have hc : IntOp.cmpi .eq x y = 0#1 := by simp [IntOp.cmpi, hb]
    have h0 : ((0#1 : BitVec 1).setWidth 32).toInt = 0 := by decide
    rw [hc, if_neg h, h0]
    norm_num

/-- The membership matrix at (r, g): whether node r's id word names graph g. -/
theorem member_apply (b : Vec Ideal S1000x1 .i32) (r : Fin 1000) (g : Fin 500) :
    k2_pay3 (F := Ideal) b (ix2 r g) = member (b (ix2 r (0 : Fin 1))) g := by
  unfold k2_pay3
  rw [truncf_apply, sitofp_apply, extui_apply]
  show FloatOps.sitofp (F := Ideal) .f32 ((IntOp.cmpi .eq _ _).setWidth 32) = _
  rw [sitofp_cmpi_eq, broadcastTo_a1_ab_apply, shapeCast_self, shapeCast_self, iota_single_apply]
  rfl

/-! ### The two products over the nodes of a block: Σ_r l[r,g] · m[r,c] -/

theorem lhs_sums_0 (i : S500x64.Idx) (q : dot_S1000x500_S1000x64_S500x64_0_0_1_1_n_n.contr.Idx) :
    (dot_S1000x500_S1000x64_S500x64_0_0_1_1_n_n.lhsIdx i q 0).val = (q ⟨0, by decide⟩).val :=
  dot_S1000x500_S1000x64_S500x64_0_0_1_1_n_n.lhsIdx_val_of_single rfl i q
theorem lhs_sums_1 (i : S500x64.Idx) (q : dot_S1000x500_S1000x64_S500x64_0_0_1_1_n_n.contr.Idx) :
    (dot_S1000x500_S1000x64_S500x64_0_0_1_1_n_n.lhsIdx i q 1).val = (i 0).val := by
  unfold DotDims.lhsIdx
  rw [dif_neg (show ¬(1 : Fin S1000x500.rank) ∈ dot_S1000x500_S1000x64_S500x64_0_0_1_1_n_n.lhsBatch by decide), dif_pos (show (1 : Fin S1000x500.rank) ∈ dot_S1000x500_S1000x64_S500x64_0_0_1_1_n_n.lhsNonContracting by decide)]
  rfl
theorem rhs_sums_0 (i : S500x64.Idx) (q : dot_S1000x500_S1000x64_S500x64_0_0_1_1_n_n.contr.Idx) :
    (dot_S1000x500_S1000x64_S500x64_0_0_1_1_n_n.rhsIdx i q 0).val = (q ⟨0, by decide⟩).val :=
  dot_S1000x500_S1000x64_S500x64_0_0_1_1_n_n.rhsIdx_val_of_single rfl i q
theorem rhs_sums_1 (i : S500x64.Idx) (q : dot_S1000x500_S1000x64_S500x64_0_0_1_1_n_n.contr.Idx) :
    (dot_S1000x500_S1000x64_S500x64_0_0_1_1_n_n.rhsIdx i q 1).val = (i 1).val := by
  unfold DotDims.rhsIdx
  rw [dif_neg (show ¬(1 : Fin S1000x64.rank) ∈ dot_S1000x500_S1000x64_S500x64_0_0_1_1_n_n.rhsBatch by decide), dif_pos (show (1 : Fin S1000x64.rank) ∈ dot_S1000x500_S1000x64_S500x64_0_0_1_1_n_n.rhsNonContracting by decide)]
  rfl

/-- Into a zero accumulator the product over the 1000 nodes at (g, c) is Σ_r l[r,g] · m[r,c]. -/
theorem matmul_sums_apply (l : FVec Ideal S1000x500 .bf16) (m : FVec Ideal S1000x64 .bf16) (g : Fin 500) (c : Fin 64) :
    matmul dot_S1000x500_S1000x64_S500x64_0_0_1_1_n_n none l m (constant (F := Ideal) S500x64 .f32 0x00000000#32) (ix2 g c)
      = ∑ r : Fin 1000, l (ix2 r g) * m (ix2 r c) := by
  refine (Ideal.matmul_constant_zero_apply dot_S1000x500_S1000x64_S500x64_0_0_1_1_n_n none l m (ix2 g c)).trans ?_
  rw [← Equiv.sum_comp (contrEquiv1 dot_S1000x500_S1000x64_S500x64_0_0_1_1_n_n 1000 rfl rfl).symm]
  refine Finset.sum_congr rfl fun k _ => ?_
  have hk := contrEquiv1_symm_val dot_S1000x500_S1000x64_S500x64_0_0_1_1_n_n 1000 rfl rfl k
  have el : dot_S1000x500_S1000x64_S500x64_0_0_1_1_n_n.lhsIdx (ix2 g c) ((contrEquiv1 dot_S1000x500_S1000x64_S500x64_0_0_1_1_n_n 1000 rfl rfl).symm k) = ix2 k g := funext fun a => Fin.ext (by
    match a with
    | ⟨0, _⟩ => exact (lhs_sums_0 _ _).trans hk
    | ⟨1, _⟩ => exact lhs_sums_1 _ _)
  have er : dot_S1000x500_S1000x64_S500x64_0_0_1_1_n_n.rhsIdx (ix2 g c) ((contrEquiv1 dot_S1000x500_S1000x64_S500x64_0_0_1_1_n_n 1000 rfl rfl).symm k) = ix2 k c := funext fun a => Fin.ext (by
    match a with
    | ⟨0, _⟩ => exact (rhs_sums_0 _ _).trans hk
    | ⟨1, _⟩ => exact rhs_sums_1 _ _)
  rw [el, er]

theorem lhs_counts_0 (i : S500x1.Idx) (q : dot_S1000x500_S1000x1_S500x1_0_0_1_1_n_n.contr.Idx) :
    (dot_S1000x500_S1000x1_S500x1_0_0_1_1_n_n.lhsIdx i q 0).val = (q ⟨0, by decide⟩).val :=
  dot_S1000x500_S1000x1_S500x1_0_0_1_1_n_n.lhsIdx_val_of_single rfl i q
theorem lhs_counts_1 (i : S500x1.Idx) (q : dot_S1000x500_S1000x1_S500x1_0_0_1_1_n_n.contr.Idx) :
    (dot_S1000x500_S1000x1_S500x1_0_0_1_1_n_n.lhsIdx i q 1).val = (i 0).val := by
  unfold DotDims.lhsIdx
  rw [dif_neg (show ¬(1 : Fin S1000x500.rank) ∈ dot_S1000x500_S1000x1_S500x1_0_0_1_1_n_n.lhsBatch by decide), dif_pos (show (1 : Fin S1000x500.rank) ∈ dot_S1000x500_S1000x1_S500x1_0_0_1_1_n_n.lhsNonContracting by decide)]
  rfl
theorem rhs_counts_0 (i : S500x1.Idx) (q : dot_S1000x500_S1000x1_S500x1_0_0_1_1_n_n.contr.Idx) :
    (dot_S1000x500_S1000x1_S500x1_0_0_1_1_n_n.rhsIdx i q 0).val = (q ⟨0, by decide⟩).val :=
  dot_S1000x500_S1000x1_S500x1_0_0_1_1_n_n.rhsIdx_val_of_single rfl i q
theorem rhs_counts_1 (i : S500x1.Idx) (q : dot_S1000x500_S1000x1_S500x1_0_0_1_1_n_n.contr.Idx) :
    (dot_S1000x500_S1000x1_S500x1_0_0_1_1_n_n.rhsIdx i q 1).val = (i 1).val := by
  unfold DotDims.rhsIdx
  rw [dif_neg (show ¬(1 : Fin S1000x1.rank) ∈ dot_S1000x500_S1000x1_S500x1_0_0_1_1_n_n.rhsBatch by decide), dif_pos (show (1 : Fin S1000x1.rank) ∈ dot_S1000x500_S1000x1_S500x1_0_0_1_1_n_n.rhsNonContracting by decide)]
  rfl

/-- The same against a single column. -/
theorem matmul_counts_apply (l : FVec Ideal S1000x500 .bf16) (m : FVec Ideal S1000x1 .bf16) (g : Fin 500) (c : Fin 1) :
    matmul dot_S1000x500_S1000x1_S500x1_0_0_1_1_n_n none l m (constant (F := Ideal) S500x1 .f32 0x00000000#32) (ix2 g c)
      = ∑ r : Fin 1000, l (ix2 r g) * m (ix2 r c) := by
  refine (Ideal.matmul_constant_zero_apply dot_S1000x500_S1000x1_S500x1_0_0_1_1_n_n none l m (ix2 g c)).trans ?_
  rw [← Equiv.sum_comp (contrEquiv1 dot_S1000x500_S1000x1_S500x1_0_0_1_1_n_n 1000 rfl rfl).symm]
  refine Finset.sum_congr rfl fun k _ => ?_
  have hk := contrEquiv1_symm_val dot_S1000x500_S1000x1_S500x1_0_0_1_1_n_n 1000 rfl rfl k
  have el : dot_S1000x500_S1000x1_S500x1_0_0_1_1_n_n.lhsIdx (ix2 g c) ((contrEquiv1 dot_S1000x500_S1000x1_S500x1_0_0_1_1_n_n 1000 rfl rfl).symm k) = ix2 k g := funext fun a => Fin.ext (by
    match a with
    | ⟨0, _⟩ => exact (lhs_counts_0 _ _).trans hk
    | ⟨1, _⟩ => exact lhs_counts_1 _ _)
  have er : dot_S1000x500_S1000x1_S500x1_0_0_1_1_n_n.rhsIdx (ix2 g c) ((contrEquiv1 dot_S1000x500_S1000x1_S500x1_0_0_1_1_n_n 1000 rfl rfl).symm k) = ix2 k c := funext fun a => Fin.ext (by
    match a with
    | ⟨0, _⟩ => exact (rhs_counts_0 _ _).trans hk
    | ⟨1, _⟩ => exact rhs_counts_1 _ _)
  rw [el, er]

theorem sums_step_apply (x : Vec Ideal S1000x64 .f32) (b : Vec Ideal S1000x1 .i32) (s : Vec Ideal S500x64 .f32)
    (g : Fin 500) (d : Fin 64) :
    k2_pay4 (F := Ideal) x b s (ix2 g d)
      = s (ix2 g d) + ∑ r : Fin 1000, member (b (ix2 r (0 : Fin 1))) g * x (ix2 r d) := by
  unfold k2_pay4
  rw [shapeCast_self, addf_apply]
  refine congrArg (s (ix2 g d) + ·) ?_
  refine (matmul_sums_apply _ _ g d).trans ?_
  refine Finset.sum_congr rfl fun r _ => ?_
  rw [member_apply, truncf_apply, shapeCast_self]

theorem counts_step_apply (b : Vec Ideal S1000x1 .i32) (s : Vec Ideal S500x1 .f32) (g : Fin 500) :
    k2_pay5 (F := Ideal) b s (ix2 g (0 : Fin 1))
      = s (ix2 g (0 : Fin 1)) + ∑ r : Fin 1000, member (b (ix2 r (0 : Fin 1))) g := by
  unfold k2_pay5
  rw [shapeCast_self, addf_apply]
  refine congrArg (s (ix2 g (0 : Fin 1)) + ·) ?_
  refine (matmul_counts_apply _ _ g (0 : Fin 1)).trans ?_
  refine Finset.sum_congr rfl fun r _ => ?_
  rw [member_apply, broadcast_apply]
  exact (congrArg (member (b (ix2 r (0 : Fin 1))) g * ·) Ideal.ofBits_one_bf16).trans (mul_one _)

/-! ### The classifier: a 500×64 block against a 64×10 matrix -/

theorem lhs_cls_0 (i : S500x10.Idx) (q : dot_S500x64_S64x10_S500x10_1_0_0_1_n_n.contr.Idx) :
    (dot_S500x64_S64x10_S500x10_1_0_0_1_n_n.lhsIdx i q 0).val = (i 0).val := by
  unfold DotDims.lhsIdx
  rw [dif_neg (show ¬(0 : Fin S500x64.rank) ∈ dot_S500x64_S64x10_S500x10_1_0_0_1_n_n.lhsBatch by decide), dif_pos (show (0 : Fin S500x64.rank) ∈ dot_S500x64_S64x10_S500x10_1_0_0_1_n_n.lhsNonContracting by decide)]
  rfl
theorem lhs_cls_1 (i : S500x10.Idx) (q : dot_S500x64_S64x10_S500x10_1_0_0_1_n_n.contr.Idx) :
    (dot_S500x64_S64x10_S500x10_1_0_0_1_n_n.lhsIdx i q 1).val = (q ⟨0, by decide⟩).val :=
  dot_S500x64_S64x10_S500x10_1_0_0_1_n_n.lhsIdx_val_of_single rfl i q
theorem rhs_cls_0 (i : S500x10.Idx) (q : dot_S500x64_S64x10_S500x10_1_0_0_1_n_n.contr.Idx) :
    (dot_S500x64_S64x10_S500x10_1_0_0_1_n_n.rhsIdx i q 0).val = (q ⟨0, by decide⟩).val :=
  dot_S500x64_S64x10_S500x10_1_0_0_1_n_n.rhsIdx_val_of_single rfl i q
theorem rhs_cls_1 (i : S500x10.Idx) (q : dot_S500x64_S64x10_S500x10_1_0_0_1_n_n.contr.Idx) :
    (dot_S500x64_S64x10_S500x10_1_0_0_1_n_n.rhsIdx i q 1).val = (i 1).val := by
  unfold DotDims.rhsIdx
  rw [dif_neg (show ¬(1 : Fin S64x10.rank) ∈ dot_S500x64_S64x10_S500x10_1_0_0_1_n_n.rhsBatch by decide), dif_pos (show (1 : Fin S64x10.rank) ∈ dot_S500x64_S64x10_S500x10_1_0_0_1_n_n.rhsNonContracting by decide)]
  rfl

/-- Into a zero accumulator the product at (g, j) is Σ_d l[g,d] · m[d,j]. -/
theorem matmul_cls_apply (l : FVec Ideal S500x64 .bf16) (m : FVec Ideal S64x10 .bf16) (r : Fin 500) (j : Fin 10) :
    matmul dot_S500x64_S64x10_S500x10_1_0_0_1_n_n none l m (constant (F := Ideal) S500x10 .f32 0x00000000#32) (ix2 r j)
      = ∑ k : Fin 64, l (ix2 r k) * m (ix2 k j) := by
  refine (Ideal.matmul_constant_zero_apply dot_S500x64_S64x10_S500x10_1_0_0_1_n_n none l m (ix2 r j)).trans ?_
  rw [← Equiv.sum_comp (contrEquiv1 dot_S500x64_S64x10_S500x10_1_0_0_1_n_n 64 rfl rfl).symm]
  refine Finset.sum_congr rfl fun k _ => ?_
  have hk := contrEquiv1_symm_val dot_S500x64_S64x10_S500x10_1_0_0_1_n_n 64 rfl rfl k
  have el : dot_S500x64_S64x10_S500x10_1_0_0_1_n_n.lhsIdx (ix2 r j) ((contrEquiv1 dot_S500x64_S64x10_S500x10_1_0_0_1_n_n 64 rfl rfl).symm k) = ix2 r k := funext fun a => Fin.ext (by
    match a with
    | ⟨0, _⟩ => exact lhs_cls_0 _ _
    | ⟨1, _⟩ => exact (lhs_cls_1 _ _).trans hk)
  have er : dot_S500x64_S64x10_S500x10_1_0_0_1_n_n.rhsIdx (ix2 r j) ((contrEquiv1 dot_S500x64_S64x10_S500x10_1_0_0_1_n_n 64 rfl rfl).symm k) = ix2 k j := funext fun a => Fin.ext (by
    match a with
    | ⟨0, _⟩ => exact (rhs_cls_0 _ _).trans hk
    | ⟨1, _⟩ => exact rhs_cls_1 _ _)
  rw [el, er]

theorem classify_apply (S : Vec Ideal S500x64 .f32) (C : Vec Ideal S500x1 .f32) (w : Vec Ideal S64x10 .f32)
    (b : Vec Ideal S1x10 .f32) (g : Fin 500) (j : Fin 10) :
    k2_pay6 (F := Ideal) S C w b (ix2 g j)
      = (∑ d : Fin 64, Ideal.div (S (ix2 g d)) (max (C (ix2 g (0 : Fin 1))) 1) * w (ix2 d j)) + b (ix2 (0 : Fin 1) j) := by
  unfold k2_pay6
  rw [addf_apply]
  refine congrArg₂ (· + ·) ?_ ?_
  · refine (matmul_cls_apply _ _ g j).trans ?_
    refine Finset.sum_congr rfl fun d _ => ?_
    rw [truncf_apply, truncf_apply, divf_apply, broadcastTo_a1_ab_apply, maximumf_apply, broadcast_apply]
    exact congrArg (fun t => Ideal.div (S (ix2 g d)) (max (C (ix2 g (0 : Fin 1))) t) * w (ix2 d j)) Ideal.ofBits_one_f32
  · rw [shapeCast_self]
    exact broadcastTo_1b_ab_apply b broadcasts_S1x10_S500x10 g j

end Cert.KernelIdeal.Pay

end
-- ==== Proof.KI.LinVal0.lean ====
/-
  What the first linear-and-relu launch leaves in its output array, over the extended reals.

  The ten output blocks tile the array: block t is rows 5000·t … 5000·t + 4999, written back at point t and never
  again. So the array after the launch is, row by row, the body's arithmetic of that row of the features and of the
  neighbour sums: at (n, j) it is max (Σ_k (x[n,k] + a[n,k]) · w[k,j] + b[0,j]) 0.
-/
import proofs.«429733_j73710228734579_1_alg».proof.Proof.KI.Lin0
import proofs.«429733_j73710228734579_1_alg».proof.Proof.KI.Pay
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The four input arrays of the launch as it finds them, at their literal types. -/
abbrev xArr0 (c : Dev nD) : Vec Ideal S50000x64 .f32 := V c main_arg0
abbrev aArr0 (c : Dev nD) : Vec Ideal S50000x64 .f32 := V c main_v14
abbrev wArr0 (c : Dev nD) : Vec Ideal S64x64 .f32 := V c main_arg3
abbrev bArr0 (c : Dev nD) : Vec Ideal S1x64 .f32 := V c main_v15

/-- The zero offsets of a whole-block rectangle, as the body spells them. -/
theorem zeros0 : (![0, 0] : Fin 2 → Nat) = fun _ => 0 := funext fun a => by fin_cases a <;> rfl

/-- The printed index maps over the grid: at point t the two node windows and the output window sit at block (t, 0),
    the weights and the bias row at block (0, 0). -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0) :=
  (by decide +kernel : ∀ t : Fin grid0.N, _)

/-- Block t of the node features is rows 5000·t … 5000·t + 4999 of the array. -/
theorem xblk0_apply (c : Dev nD) (t : Fin cfg0.N) (r : Fin 5000) (k : Fin 64) (n : Fin 50000)
    (hn : n.val = 5000 * t.val + r.val) :
    (iblk0 (F := Ideal) V c 0 t : Vec Ideal S5000x64 .f32) (ix2 r k) = xArr0 V c (ix2 n k) := by
  obtain ⟨⟨e0, e1⟩, -⟩ := idx0 t
  unfold iblk0
  rw [View.read_apply]
  show V c main_arg0 (((cfg0.win 0).blk t).view.emb (ix2 r k)) = V c main_arg0 (ix2 n k)
  congr 1
  funext a
  apply Fin.ext
  match a with
  | ⟨0, _⟩ => show win0_0.index t (0 : Fin 2) * 5000 + 1 * r.val = n.val; rw [e0, hn]; omega
  | ⟨1, _⟩ => show win0_0.index t (1 : Fin 2) * 64 + 1 * k.val = k.val; rw [e1]; omega

/-- Block t of the neighbour sums is the same rows of their array. -/
theorem ablk0_apply (c : Dev nD) (t : Fin cfg0.N) (r : Fin 5000) (k : Fin 64) (n : Fin 50000)
    (hn : n.val = 5000 * t.val + r.val) :
    (iblk0 (F := Ideal) V c 1 t : Vec Ideal S5000x64 .f32) (ix2 r k) = aArr0 V c (ix2 n k) := by
  obtain ⟨-, ⟨e0, e1⟩, -⟩ := idx0 t
  unfold iblk0
  rw [View.read_apply]
  show V c main_v14 (((cfg0.win 1).blk t).view.emb (ix2 r k)) = V c main_v14 (ix2 n k)
  congr 1
  funext a
  apply Fin.ext
  match a with
  | ⟨0, _⟩ => show win0_1.index t (0 : Fin 2) * 5000 + 1 * r.val = n.val; rw [e0, hn]; omega
  | ⟨1, _⟩ => show win0_1.index t (1 : Fin 2) * 64 + 1 * k.val = k.val; rw [e1]; omega

/-- The weights' one block is the whole matrix, at every point. -/
theorem wblk0_apply (c : Dev nD) (t : Fin cfg0.N) (k j : Fin 64) :
    (iblk0 (F := Ideal) V c 2 t : Vec Ideal S64x64 .f32) (ix2 k j) = wArr0 V c (ix2 k j) := by
  obtain ⟨-, -, ⟨e0, e1⟩, -⟩ := idx0 t
  unfold iblk0
  rw [View.read_apply]
  show V c main_arg3 (((cfg0.win 2).blk t).view.emb (ix2 k j)) = V c main_arg3 (ix2 k j)
  congr 1
  funext a
  apply Fin.ext
  match a with
  | ⟨0, _⟩ => show win0_2.index t (0 : Fin 2) * 64 + 1 * k.val = k.val; rw [e0]; omega
  | ⟨1, _⟩ => show win0_2.index t (1 : Fin 2) * 64 + 1 * j.val = j.val; rw [e1]; omega

/-- The bias row's one block is the whole row, at every point. -/
theorem bblk0_apply (c : Dev nD) (t : Fin cfg0.N) (z : Fin 1) (j : Fin 64) :
    (iblk0 (F := Ideal) V c 3 t : Vec Ideal S1x64 .f32) (ix2 z j) = bArr0 V c (ix2 z j) := by
  obtain ⟨-, -, -, ⟨e0, e1⟩, -⟩ := idx0 t
  unfold iblk0
  rw [View.read_apply]
  show V c main_v15 (((cfg0.win 3).blk t).view.emb (ix2 z j)) = V c main_v15 (ix2 z j)
  congr 1
  funext a
  apply Fin.ext
  match a with
  | ⟨0, _⟩ => show win0_3.index t (0 : Fin 2) * 1 + 1 * z.val = z.val; rw [e0]; omega
  | ⟨1, _⟩ => show win0_3.index t (1 : Fin 2) * 64 + 1 * j.val = j.val; rw [e1]; omega

/-- The body's arithmetic at (r, j) of four blocks that are, along row r and column j, row n of two arrays X and A,
    column j of a matrix W and entry j of a row B, is the same arithmetic of X, A, W and B at (n, j). -/
theorem lin0_point (x a : Vec Ideal S5000x64 .f32) (w : Vec Ideal S64x64 .f32) (b : Vec Ideal S1x64 .f32)
    (X A : Vec Ideal S50000x64 .f32) (W : Vec Ideal S64x64 .f32) (B : Vec Ideal S1x64 .f32)
    (r : Fin 5000) (j : Fin 64) (n : Fin 50000)
    (hx : ∀ k : Fin 64, x (ix2 r k) = X (ix2 n k)) (ha : ∀ k : Fin 64, a (ix2 r k) = A (ix2 n k))
    (hw : ∀ k : Fin 64, w (ix2 k j) = W (ix2 k j)) (hb : b (ix2 (0 : Fin 1) j) = B (ix2 (0 : Fin 1) j)) :
    k0_pay1 (F := Ideal) x a w b (ix2 r j)
      = max ((∑ k : Fin 64, (X (ix2 n k) + A (ix2 n k)) * W (ix2 k j)) + B (ix2 (0 : Fin 1) j)) 0 := by
  rw [lin0_apply, hb]
  simp only [hx, ha, hw]

/-- What point t writes back is block t of G. -/
theorem flushed0_eq (c : Dev nD) (G : Vec Ideal S50000x64 .f32)
    (hG : ∀ (n : Fin 50000) (j : Fin 64), G (ix2 n j)
      = max ((∑ k : Fin 64, (xArr0 V c (ix2 n k) + aArr0 V c (ix2 n k)) * wArr0 V c (ix2 k j)) + bArr0 V c (ix2 (0 : Fin 1) j)) 0)
    (t : Fin cfg0.N) :
    (dat0 (F := Ideal) V c).flushed 4 t = ((cfg0.win 4).blk t).view.read (Elt Ideal) G := by
  show (cfg0.win 4).cut (grid0.coords t) ((dat0 V c).after 4 t) = _
  rw [after0_4]
  unfold out0_4
  rw [View.canon_unit_zero zeros0]
  simp only [View.ld_unit_zero (S := S5000x64) zeros0, View.ld_unit_zero (S := S64x64) zeros0, View.ld_unit_zero (S := S1x64) zeros0]
  obtain ⟨-, -, -, -, e0, e1⟩ := idx0 t
  funext y
  obtain ⟨r, j, rfl⟩ : ∃ (r : Fin 5000) (j : Fin 64), y = ix2 r j := ⟨y 0, y 1, eq_ix2 y⟩
  have hr : r.val < 5000 := r.isLt
  have ht : t.val < 10 := t.isLt
  have hn : 5000 * t.val + r.val < 50000 := by omega
  show k0_pay1 (F := Ideal) (iblk0 V c 0 t) (iblk0 V c 1 t) (iblk0 V c 2 t) (iblk0 V c 3 t) (ix2 r j)
    = G (((cfg0.win 4).blk t).view.emb (ix2 r j))
  have hemb : ((cfg0.win 4).blk t).view.emb (ix2 r j) = ix2 (⟨5000 * t.val + r.val, hn⟩ : Fin 50000) j := by
    funext a
    apply Fin.ext
    match a with
    | ⟨0, _⟩ => show win0_4.index t (0 : Fin 2) * 5000 + 1 * r.val = 5000 * t.val + r.val; rw [e0]; omega
    | ⟨1, _⟩ => show win0_4.index t (1 : Fin 2) * 64 + 1 * j.val = j.val; rw [e1]; omega
  rw [hemb, hG]
  exact lin0_point (iblk0 V c 0 t) (iblk0 V c 1 t) (iblk0 V c 2 t) (iblk0 V c 3 t) (xArr0 V c) (aArr0 V c) (wArr0 V c) (bArr0 V c)
    r j ⟨5000 * t.val + r.val, hn⟩ (fun k => xblk0_apply V c t r k _ rfl) (fun k => ablk0_apply V c t r k _ rfl)
    (fun k => wblk0_apply V c t k j) (bblk0_apply V c t 0 j)

/-- An index of the array is in point t's block iff each coordinate is in the block's range on its axis. -/
theorem mem_blk0 (t : Fin cfg0.N) (i : S50000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v16).slice (win0_4.rect t)).set ↔ _
  rw [View.set_slice_whole, Rect.mem_set_unit]
  exact Iff.rfl

/-- Every index of the array is in some point's block: row n is in the block of point n / 5000. -/
theorem cover0 (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  have hq : (i 0).val / 5000 < 10 := by omega
  obtain ⟨-, -, -, -, e0, e1⟩ := idx0 ⟨(i 0).val / 5000, hq⟩
  refine ⟨⟨(i 0).val / 5000, hq⟩, flush0_4 _, ?_⟩
  rw [mem_blk0]
  intro a
  match a with
  | ⟨0, _⟩ =>
    show win0_4.index ⟨(i 0).val / 5000, hq⟩ (0 : Fin 2) * 5000 ≤ (i 0).val
      ∧ (i 0).val < win0_4.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win0_4.index ⟨(i 0).val / 5000, hq⟩ (1 : Fin 2) * 64 ≤ (i 1).val
      ∧ (i 1).val < win0_4.index ⟨(i 0).val / 5000, hq⟩ (1 : Fin 2) * 64 + 64
    rw [e1]
    omega

/-- The output array after the launch is any whole-array function G that is, at every (n, j), the body's arithmetic
    of row n of the two node arrays, the weights and the bias row. -/
theorem lin0_arr (c : Dev nD) (G : Vec Ideal S50000x64 .f32)
    (hG : ∀ (n : Fin 50000) (j : Fin 64), G (ix2 n j)
      = max ((∑ k : Fin 64, (xArr0 V c (ix2 n k) + aArr0 V c (ix2 n k)) * wArr0 V c (ix2 k j)) + bArr0 V c (ix2 (0 : Fin 1) j)) 0) :
    (dat0 (F := Ideal) V c).arrAt 4 cfg0.N = G := by
  exact (dat0 (F := Ideal) V c).arrAt_eq_of_cover 4 G (fun t _ => flushed0_eq V c G hG t) cover0

end Cert.KernelIdeal.Hand

end
-- ==== Proof.KI.LinVal1.lean ====
/-
  What the second linear-and-relu launch leaves in its output array, over the extended reals.

  The ten output blocks tile the array: block t is rows 5000·t … 5000·t + 4999, written back at point t and never
  again. So the array after the launch is, row by row, the body's arithmetic of that row of the features and of the
  neighbour sums: at (n, j) it is max (Σ_k (x[n,k] + a[n,k]) · w[k,j] + b[0,j]) 0.
-/
import proofs.«429733_j73710228734579_1_alg».proof.Proof.KI.Lin1
import proofs.«429733_j73710228734579_1_alg».proof.Proof.KI.Pay
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The four input arrays of the launch as it finds them, at their literal types. -/
abbrev xArr1 (c : Dev nD) : Vec Ideal S50000x64 .f32 := V c main_v16
abbrev aArr1 (c : Dev nD) : Vec Ideal S50000x64 .f32 := V c main_v26
abbrev wArr1 (c : Dev nD) : Vec Ideal S64x64 .f32 := V c main_arg5
abbrev bArr1 (c : Dev nD) : Vec Ideal S1x64 .f32 := V c main_v27

/-- The zero offsets of a whole-block rectangle, as the body spells them. -/
theorem zeros1 : (![0, 0] : Fin 2 → Nat) = fun _ => 0 := funext fun a => by fin_cases a <;> rfl

/-- The printed index maps over the grid: at point t the two node windows and the output window sit at block (t, 0),
    the weights and the bias row at block (0, 0). -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0) :=
  (by decide +kernel : ∀ t : Fin grid1.N, _)

/-- Block t of the node features is rows 5000·t … 5000·t + 4999 of the array. -/
theorem xblk1_apply (c : Dev nD) (t : Fin cfg1.N) (r : Fin 5000) (k : Fin 64) (n : Fin 50000)
    (hn : n.val = 5000 * t.val + r.val) :
    (iblk1 (F := Ideal) V c 0 t : Vec Ideal S5000x64 .f32) (ix2 r k) = xArr1 V c (ix2 n k) := by
  obtain ⟨⟨e0, e1⟩, -⟩ := idx1 t
  unfold iblk1
  rw [View.read_apply]
  show V c main_v16 (((cfg1.win 0).blk t).view.emb (ix2 r k)) = V c main_v16 (ix2 n k)
  congr 1
  funext a
  apply Fin.ext
  match a with
  | ⟨0, _⟩ => show win1_0.index t (0 : Fin 2) * 5000 + 1 * r.val = n.val; rw [e0, hn]; omega
  | ⟨1, _⟩ => show win1_0.index t (1 : Fin 2) * 64 + 1 * k.val = k.val; rw [e1]; omega

/-- Block t of the neighbour sums is the same rows of their array. -/
theorem ablk1_apply (c : Dev nD) (t : Fin cfg1.N) (r : Fin 5000) (k : Fin 64) (n : Fin 50000)
    (hn : n.val = 5000 * t.val + r.val) :
    (iblk1 (F := Ideal) V c 1 t : Vec Ideal S5000x64 .f32) (ix2 r k) = aArr1 V c (ix2 n k) := by
  obtain ⟨-, ⟨e0, e1⟩, -⟩ := idx1 t
  unfold iblk1
  rw [View.read_apply]
  show V c main_v26 (((cfg1.win 1).blk t).view.emb (ix2 r k)) = V c main_v26 (ix2 n k)
  congr 1
  funext a
  apply Fin.ext
  match a with
  | ⟨0, _⟩ => show win1_1.index t (0 : Fin 2) * 5000 + 1 * r.val = n.val; rw [e0, hn]; omega
  | ⟨1, _⟩ => show win1_1.index t (1 : Fin 2) * 64 + 1 * k.val = k.val; rw [e1]; omega

/-- The weights' one block is the whole matrix, at every point. -/
theorem wblk1_apply (c : Dev nD) (t : Fin cfg1.N) (k j : Fin 64) :
    (iblk1 (F := Ideal) V c 2 t : Vec Ideal S64x64 .f32) (ix2 k j) = wArr1 V c (ix2 k j) := by
  obtain ⟨-, -, ⟨e0, e1⟩, -⟩ := idx1 t
  unfold iblk1
  rw [View.read_apply]
  show V c main_arg5 (((cfg1.win 2).blk t).view.emb (ix2 k j)) = V c main_arg5 (ix2 k j)
  congr 1
  funext a
  apply Fin.ext
  match a with
  | ⟨0, _⟩ => show win1_2.index t (0 : Fin 2) * 64 + 1 * k.val = k.val; rw [e0]; omega
  | ⟨1, _⟩ => show win1_2.index t (1 : Fin 2) * 64 + 1 * j.val = j.val; rw [e1]; omega

/-- The bias row's one block is the whole row, at every point. -/
theorem bblk1_apply (c : Dev nD) (t : Fin cfg1.N) (z : Fin 1) (j : Fin 64) :
    (iblk1 (F := Ideal) V c 3 t : Vec Ideal S1x64 .f32) (ix2 z j) = bArr1 V c (ix2 z j) := by
  obtain ⟨-, -, -, ⟨e0, e1⟩, -⟩ := idx1 t
  unfold iblk1
  rw [View.read_apply]
  show V c main_v27 (((cfg1.win 3).blk t).view.emb (ix2 z j)) = V c main_v27 (ix2 z j)
  congr 1
  funext a
  apply Fin.ext
  match a with
  | ⟨0, _⟩ => show win1_3.index t (0 : Fin 2) * 1 + 1 * z.val = z.val; rw [e0]; omega
  | ⟨1, _⟩ => show win1_3.index t (1 : Fin 2) * 64 + 1 * j.val = j.val; rw [e1]; omega

/-- The body's arithmetic at (r, j) of four blocks that are, along row r and column j, row n of two arrays X and A,
    column j of a matrix W and entry j of a row B, is the same arithmetic of X, A, W and B at (n, j). -/
theorem lin1_point (x a : Vec Ideal S5000x64 .f32) (w : Vec Ideal S64x64 .f32) (b : Vec Ideal S1x64 .f32)
    (X A : Vec Ideal S50000x64 .f32) (W : Vec Ideal S64x64 .f32) (B : Vec Ideal S1x64 .f32)
    (r : Fin 5000) (j : Fin 64) (n : Fin 50000)
    (hx : ∀ k : Fin 64, x (ix2 r k) = X (ix2 n k)) (ha : ∀ k : Fin 64, a (ix2 r k) = A (ix2 n k))
    (hw : ∀ k : Fin 64, w (ix2 k j) = W (ix2 k j)) (hb : b (ix2 (0 : Fin 1) j) = B (ix2 (0 : Fin 1) j)) :
    k1_pay1 (F := Ideal) x a w b (ix2 r j)
      = max ((∑ k : Fin 64, (X (ix2 n k) + A (ix2 n k)) * W (ix2 k j)) + B (ix2 (0 : Fin 1) j)) 0 := by
  rw [lin1_apply, hb]
  simp only [hx, ha, hw]

/-- What point t writes back is block t of G. -/
theorem flushed1_eq (c : Dev nD) (G : Vec Ideal S50000x64 .f32)
    (hG : ∀ (n : Fin 50000) (j : Fin 64), G (ix2 n j)
      = max ((∑ k : Fin 64, (xArr1 V c (ix2 n k) + aArr1 V c (ix2 n k)) * wArr1 V c (ix2 k j)) + bArr1 V c (ix2 (0 : Fin 1) j)) 0)
    (t : Fin cfg1.N) :
    (dat1 (F := Ideal) V c).flushed 4 t = ((cfg1.win 4).blk t).view.read (Elt Ideal) G := by
  show (cfg1.win 4).cut (grid1.coords t) ((dat1 V c).after 4 t) = _
  rw [after1_4]
  unfold out1_4
  rw [View.canon_unit_zero zeros1]
  simp only [View.ld_unit_zero (S := S5000x64) zeros1, View.ld_unit_zero (S := S64x64) zeros1, View.ld_unit_zero (S := S1x64) zeros1]
  obtain ⟨-, -, -, -, e0, e1⟩ := idx1 t
  funext y
  obtain ⟨r, j, rfl⟩ : ∃ (r : Fin 5000) (j : Fin 64), y = ix2 r j := ⟨y 0, y 1, eq_ix2 y⟩
  have hr : r.val < 5000 := r.isLt
  have ht : t.val < 10 := t.isLt
  have hn : 5000 * t.val + r.val < 50000 := by omega
  show k1_pay1 (F := Ideal) (iblk1 V c 0 t) (iblk1 V c 1 t) (iblk1 V c 2 t) (iblk1 V c 3 t) (ix2 r j)
    = G (((cfg1.win 4).blk t).view.emb (ix2 r j))
  have hemb : ((cfg1.win 4).blk t).view.emb (ix2 r j) = ix2 (⟨5000 * t.val + r.val, hn⟩ : Fin 50000) j := by
    funext a
    apply Fin.ext
    match a with
    | ⟨0, _⟩ => show win1_4.index t (0 : Fin 2) * 5000 + 1 * r.val = 5000 * t.val + r.val; rw [e0]; omega
    | ⟨1, _⟩ => show win1_4.index t (1 : Fin 2) * 64 + 1 * j.val = j.val; rw [e1]; omega
  rw [hemb, hG]
  exact lin1_point (iblk1 V c 0 t) (iblk1 V c 1 t) (iblk1 V c 2 t) (iblk1 V c 3 t) (xArr1 V c) (aArr1 V c) (wArr1 V c) (bArr1 V c)
    r j ⟨5000 * t.val + r.val, hn⟩ (fun k => xblk1_apply V c t r k _ rfl) (fun k => ablk1_apply V c t r k _ rfl)
    (fun k => wblk1_apply V c t k j) (bblk1_apply V c t 0 j)

/-- An index of the array is in point t's block iff each coordinate is in the block's range on its axis. -/
theorem mem_blk1 (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v28).slice (win1_4.rect t)).set ↔ _
  rw [View.set_slice_whole, Rect.mem_set_unit]
  exact Iff.rfl

/-- Every index of the array is in some point's block: row n is in the block of point n / 5000. -/
theorem cover1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hq : (i 0).val / 5000 < 10 := by omega
  obtain ⟨-, -, -, -, e0, e1⟩ := idx1 ⟨(i 0).val / 5000, hq⟩
  refine ⟨⟨(i 0).val / 5000, hq⟩, flush1_4 _, ?_⟩
  rw [mem_blk1]
  intro a
  match a with
  | ⟨0, _⟩ =>
    show win1_4.index ⟨(i 0).val / 5000, hq⟩ (0 : Fin 2) * 5000 ≤ (i 0).val
      ∧ (i 0).val < win1_4.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win1_4.index ⟨(i 0).val / 5000, hq⟩ (1 : Fin 2) * 64 ≤ (i 1).val
      ∧ (i 1).val < win1_4.index ⟨(i 0).val / 5000, hq⟩ (1 : Fin 2) * 64 + 64
    rw [e1]
    omega

/-- The output array after the launch is any whole-array function G that is, at every (n, j), the body's arithmetic
    of row n of the two node arrays, the weights and the bias row. -/
theorem lin1_arr (c : Dev nD) (G : Vec Ideal S50000x64 .f32)
    (hG : ∀ (n : Fin 50000) (j : Fin 64), G (ix2 n j)
      = max ((∑ k : Fin 64, (xArr1 V c (ix2 n k) + aArr1 V c (ix2 n k)) * wArr1 V c (ix2 k j)) + bArr1 V c (ix2 (0 : Fin 1) j)) 0) :
    (dat1 (F := Ideal) V c).arrAt 4 cfg1.N = G := by
  exact (dat1 (F := Ideal) V c).arrAt_eq_of_cover 4 G (fun t _ => flushed1_eq V c G hG t) cover1

end Cert.KernelIdeal.Hand

end
-- ==== Proof.KI.PoolVal.lean ====
/-
  What the pooling launch leaves in its output array, over the extended reals.

  After point k the feature-sum accumulator holds, at (g, d), the sum over the first 1000·(k+1) nodes n of
  [node n belongs to graph g] · h[n,d], and the count accumulator the number of those nodes that belong to g: an
  induction on the point, each step adding one block's contribution. The output array is one block, stored and written
  back at the last point only, so after the launch it is the classifier of the finished sums and counts:
  at (g, j), Σ_d (S[g,d] / max C[g] 1) · w[d,j] + b[0,j].
-/
import proofs.«429733_j73710228734579_1_alg».proof.Proof.KI.Pool
import proofs.«429733_j73710228734579_1_alg».proof.Proof.KI.Pay
import proofs.«429733_j73710228734579_1_alg».proof.Proof.Spec
import Idealize.ShloMosaic.Lib.Pipeline.Value
import Idealize.ShloMosaic.Lib.ValueIdx
import Mathlib.Algebra.BigOperators.Fin
import Mathlib.Algebra.BigOperators.Intervals

set_option maxRecDepth 16384

noncomputable section

namespace Cert.KernelIdeal.Hand

open Cert.KernelIdeal Cert.KernelIdeal.Gen Cert.KernelIdeal.Pay Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The four input arrays of the launch as it finds them, at their literal types: the node features, the column of
    node-to-graph ids, the classifier's weights and its bias row. -/
abbrev hArr2 (c : Dev nD) : Vec Ideal S50000x64 .f32 := V c main_v28
abbrev idArr2 (c : Dev nD) : Vec Ideal S50000x1 .i32 := V c main_v4
abbrev wArr2 (c : Dev nD) : Vec Ideal S64x10 .f32 := V c main_arg7
abbrev bArr2 (c : Dev nD) : Vec Ideal S1x10 .f32 := V c main_v29

/-! ## Sums over the nodes, a block of 1000 at a time -/

/-- A sum over the first m + 1000 naturals is the sum over the first m plus the sum over the next 1000. -/
theorem sum_range_add_block (f : ℕ → EReal) (m : ℕ) :
    ∑ i ∈ Finset.range (m + 1000), f i = ∑ i ∈ Finset.range m, f i + ∑ r : Fin 1000, f (m + r.val) := by
  rw [Finset.sum_range_add, Fin.sum_univ_eq_sum_range (fun r => f (m + r)) 1000]

/-- A sum over the first 50000 naturals of a function that is f on the nodes is the sum of f over all nodes. -/
theorem sum_range_nodes (f : Fin 50000 → EReal) :
    ∑ i ∈ Finset.range 50000, (if h : i < 50000 then f ⟨i, h⟩ else 0) = ∑ n : Fin 50000, f n := by
  rw [← Fin.sum_univ_eq_sum_range (fun i => if h : i < 50000 then f ⟨i, h⟩ else 0) 50000]
  exact Finset.sum_congr rfl fun n _ => dif_pos n.isLt

/-- One step of the feature sums: if the accumulator holds the sum of f over the first m naturals and the block's
    contribution at row r is f (m + r), the step leaves the sum over the first m + 1000. -/
theorem sums_step_blk (x : Vec Ideal S1000x64 .f32) (b : Vec Ideal S1000x1 .i32) (s : Vec Ideal S500x64 .f32)
    (g : Fin 500) (d : Fin 64) (f : ℕ → EReal) (m : ℕ)
    (hs : s (ix2 g d) = ∑ i ∈ Finset.range m, f i)
    (hx : ∀ r : Fin 1000, member (b (ix2 r (0 : Fin 1))) g * x (ix2 r d) = f (m + r.val)) :
    k2_pay4 (F := Ideal) x b s (ix2 g d) = ∑ i ∈ Finset.range (m + 1000), f i := by
  rw [sums_step_apply, hs, sum_range_add_block]
  exact congrArg (_ + ·) (Finset.sum_congr rfl fun r _ => hx r)

/-- One step of the counts, likewise. -/
theorem counts_step_blk (b : Vec Ideal S1000x1 .i32) (s : Vec Ideal S500x1 .f32)
    (g : Fin 500) (f : ℕ → EReal) (m : ℕ)
    (hs : s (ix2 g (0 : Fin 1)) = ∑ i ∈ Finset.range m, f i)
    (hx : ∀ r : Fin 1000, member (b (ix2 r (0 : Fin 1))) g = f (m + r.val)) :
    k2_pay5 (F := Ideal) b s (ix2 g (0 : Fin 1)) = ∑ i ∈ Finset.range (m + 1000), f i := by
  rw [counts_step_apply, hs, sum_range_add_block]
  exact congrArg (_ + ·) (Finset.sum_congr rfl fun r _ => hx r)

/-- The classifier at (g, j) of accumulators that hold, along row g, sums s and a count cn, and of two blocks that
    are column j of a matrix W and entry j of a row B. -/
theorem pool_point (S : Vec Ideal S500x64 .f32) (C : Vec Ideal S500x1 .f32) (w W : Vec Ideal S64x10 .f32)
    (b B : Vec Ideal S1x10 .f32) (g : Fin 500) (j : Fin 10) (s : Fin 64 → EReal) (cn : EReal)
    (hS : ∀ d : Fin 64, S (ix2 g d) = s d) (hC : C (ix2 g (0 : Fin 1)) = cn)
    (hw : ∀ d : Fin 64, w (ix2 d j) = W (ix2 d j)) (hb : b (ix2 (0 : Fin 1) j) = B (ix2 (0 : Fin 1) j)) :
    k2_pay6 (F := Ideal) S C w b (ix2 g j)
      = (∑ d : Fin 64, Ideal.div (s d) (max cn 1) * W (ix2 d j)) + B (ix2 (0 : Fin 1) j) := by
  rw [classify_apply, hb, hC]
  simp only [hS, hw]

/-! ## The blocks of the launch, read at an index -/

/-- The printed index maps over the grid: at point t the two node windows sit at block (t, 0); the weights, the bias
    row and the output at block (0, 0). -/
theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0) :=
  (by decide +kernel : ∀ t : Fin grid2.N, _)

/-- Block t of the node features is rows 1000·t … 1000·t + 999 of the array. -/
theorem hblk2_apply (c : Dev nD) (t : Fin cfg2.N) (r : Fin 1000) (k : Fin 64) (n : Fin 50000)
    (hn : n.val = 1000 * t.val + r.val) :
    (iblk2 (F := Ideal) V c 0 t : Vec Ideal S1000x64 .f32) (ix2 r k) = hArr2 V c (ix2 n k) := by
  obtain ⟨⟨e0, e1⟩, -⟩ := idx2 t
  unfold iblk2
  rw [View.read_apply]
  show V c main_v28 (((cfg2.win 0).blk t).view.emb (ix2 r k)) = V c main_v28 (ix2 n k)
  congr 1
  funext a
  apply Fin.ext
  match a with
  | ⟨0, _⟩ => show win2_0.index t (0 : Fin 2) * 1000 + 1 * r.val = n.val; rw [e0, hn]; omega
  | ⟨1, _⟩ => show win2_0.index t (1 : Fin 2) * 64 + 1 * k.val = k.val; rw [e1]; omega

/-- Block t of the id column is the same rows of its array. -/
theorem idblk2_apply (c : Dev nD) (t : Fin cfg2.N) (r : Fin 1000) (z : Fin 1) (n : Fin 50000)
    (hn : n.val = 1000 * t.val + r.val) :
    (iblk2 (F := Ideal) V c 1 t : Vec Ideal S1000x1 .i32) (ix2 r z) = idArr2 V c (ix2 n z) := by
  obtain ⟨-, ⟨e0, e1⟩, -⟩ := idx2 t
  unfold iblk2
  rw [View.read_apply]
  show V c main_v4 (((cfg2.win 1).blk t).view.emb (ix2 r z)) = V c main_v4 (ix2 n z)
  congr 1
  funext a
  apply Fin.ext
  match a with
  | ⟨0, _⟩ => show win2_1.index t (0 : Fin 2) * 1000 + 1 * r.val = n.val; rw [e0, hn]; omega
  | ⟨1, _⟩ => show win2_1.index t (1 : Fin 2) * 1 + 1 * z.val = z.val; rw [e1]; omega

/-- The weights' one block is the whole matrix, at every point. -/
theorem wblk2_apply (c : Dev nD) (t : Fin cfg2.N) (k : Fin 64) (j : Fin 10) :
    (iblk2 (F := Ideal) V c 2 t : Vec Ideal S64x10 .f32) (ix2 k j) = wArr2 V c (ix2 k j) := by
  obtain ⟨-, -, ⟨e0, e1⟩, -⟩ := idx2 t
  unfold iblk2
  rw [View.read_apply]
  show V c main_arg7 (((cfg2.win 2).blk t).view.emb (ix2 k j)) = V c main_arg7 (ix2 k j)
  congr 1
  funext a
  apply Fin.ext
  match a with
  | ⟨0, _⟩ => show win2_2.index t (0 : Fin 2) * 64 + 1 * k.val = k.val; rw [e0]; omega
  | ⟨1, _⟩ => show win2_2.index t (1 : Fin 2) * 10 + 1 * j.val = j.val; rw [e1]; omega

/-- The bias row's one block is the whole row, at every point. -/
theorem bblk2_apply (c : Dev nD) (t : Fin cfg2.N) (z : Fin 1) (j : Fin 10) :
    (iblk2 (F := Ideal) V c 3 t : Vec Ideal S1x10 .f32) (ix2 z j) = bArr2 V c (ix2 z j) := by
  obtain ⟨-, -, -, ⟨e0, e1⟩, -⟩ := idx2 t
  unfold iblk2
  rw [View.read_apply]
  show V c main_v29 (((cfg2.win 3).blk t).view.emb (ix2 z j)) = V c main_v29 (ix2 z j)
  congr 1
  funext a
  apply Fin.ext
  match a with
  | ⟨0, _⟩ => show win2_3.index t (0 : Fin 2) * 1 + 1 * z.val = z.val; rw [e0]; omega
  | ⟨1, _⟩ => show win2_3.index t (1 : Fin 2) * 10 + 1 * j.val = j.val; rw [e1]; omega

/-! ## The accumulators after each point -/

/-- Node i's contribution to the feature sum at (g, d), and to the count of graph g; nothing past the last node. -/
def sTerm2 (c : Dev nD) (g : Fin 500) (d : Fin 64) (i : ℕ) : EReal :=
  if h : i < 50000 then member (idArr2 V c (ix2 (⟨i, h⟩ : Fin 50000) (0 : Fin 1))) g * hArr2 V c (ix2 (⟨i, h⟩ : Fin 50000) d) else 0
def cTerm2 (c : Dev nD) (g : Fin 500) (i : ℕ) : EReal :=
  if h : i < 50000 then member (idArr2 V c (ix2 (⟨i, h⟩ : Fin 50000) (0 : Fin 1))) g else 0

/-- Row r of point t's blocks contributes what node 1000·t + r contributes. -/
theorem blk_sterm2 (c : Dev nD) (t : Fin cfg2.N) (g : Fin 500) (d : Fin 64) (r : Fin 1000) :
    member ((iblk2 (F := Ideal) V c 1 t : Vec Ideal S1000x1 .i32) (ix2 r (0 : Fin 1))) g
        * (iblk2 (F := Ideal) V c 0 t : Vec Ideal S1000x64 .f32) (ix2 r d)
      = sTerm2 V c g d (1000 * t.val + r.val) := by
  have ht : t.val < 50 := lt_of_lt_of_eq t.isLt (show cfg2.N = 50 from N_2)
  have hr : r.val < 1000 := r.isLt
  have hn : 1000 * t.val + r.val < 50000 := by omega
  unfold sTerm2
  rw [dif_pos hn, idblk2_apply V c t r 0 ⟨_, hn⟩ rfl, hblk2_apply V c t r d ⟨_, hn⟩ rfl]

theorem blk_cterm2 (c : Dev nD) (t : Fin cfg2.N) (g : Fin 500) (r : Fin 1000) :
    member ((iblk2 (F := Ideal) V c 1 t : Vec Ideal S1000x1 .i32) (ix2 r (0 : Fin 1))) g
      = cTerm2 V c g (1000 * t.val + r.val) := by
  have ht : t.val < 50 := lt_of_lt_of_eq t.isLt (show cfg2.N = 50 from N_2)
  have hr : r.val < 1000 := r.isLt
  have hn : 1000 * t.val + r.val < 50000 := by omega
  unfold cTerm2
  rw [dif_pos hn, idblk2_apply V c t r 0 ⟨_, hn⟩ rfl]

/-- After point n the feature sums hold, at (g, d), the contributions of the first 1000·(n+1) nodes. -/
theorem acc2_sums (c : Dev nD) (g : Fin 500) (d : Fin 64) :
    ∀ (n : ℕ) (hn : n < cfg2.N),
      (acc2 (F := Ideal) V c n hn).1 (ix2 g d) = ∑ i ∈ Finset.range (1000 * n + 1000), sTerm2 V c g d i
  | 0, hn => by
    refine sums_step_blk (iblk2 V c 0 ⟨0, hn⟩) (iblk2 V c 1 ⟨0, hn⟩) (k2_pay1 (F := Ideal)) g d (sTerm2 V c g d) (1000 * 0) ?_ ?_
    · rw [zero_sums_apply]; rfl
    · intro r; exact blk_sterm2 V c ⟨0, hn⟩ g d r
  | n + 1, hn => by
    refine sums_step_blk (iblk2 V c 0 ⟨n + 1, hn⟩) (iblk2 V c 1 ⟨n + 1, hn⟩) (acc2 V c n (Nat.lt_of_succ_lt hn)).1 g d
      (sTerm2 V c g d) (1000 * (n + 1)) ?_ ?_
    · rw [acc2_sums c g d n (Nat.lt_of_succ_lt hn), show 1000 * n + 1000 = 1000 * (n + 1) from by omega]
    · intro r; exact blk_sterm2 V c ⟨n + 1, hn⟩ g d r

/-- After point n the counts hold, at g, how many of the first 1000·(n+1) nodes belong to graph g. -/
theorem acc2_counts (c : Dev nD) (g : Fin 500) :
    ∀ (n : ℕ) (hn : n < cfg2.N),
      (acc2 (F := Ideal) V c n hn).2 (ix2 g (0 : Fin 1)) = ∑ i ∈ Finset.range (1000 * n + 1000), cTerm2 V c g i
  | 0, hn => by
    refine counts_step_blk (iblk2 V c 1 ⟨0, hn⟩) (k2_pay2 (F := Ideal)) g (cTerm2 V c g) (1000 * 0) ?_ ?_
    · rw [zero_counts_apply]; rfl
    · intro r; exact blk_cterm2 V c ⟨0, hn⟩ g r
  | n + 1, hn => by
    refine counts_step_blk (iblk2 V c 1 ⟨n + 1, hn⟩) (acc2 V c n (Nat.lt_of_succ_lt hn)).2 g
      (cTerm2 V c g) (1000 * (n + 1)) ?_ ?_
    · rw [acc2_counts c g n (Nat.lt_of_succ_lt hn), show 1000 * n + 1000 = 1000 * (n + 1) from by omega]
    · intro r; exact blk_cterm2 V c ⟨n + 1, hn⟩ g r

/-! ## What the last point writes back, and the whole array -/

/-- What the last point writes back is G. -/
theorem flushed2_eq (c : Dev nD) (G : Vec Ideal S500x10 .f32)
    (hG : ∀ (g : Fin 500) (j : Fin 10), G (ix2 g j)
      = (∑ d : Fin 64, Ideal.div (∑ n : Fin 50000, member (idArr2 V c (ix2 n (0 : Fin 1))) g * hArr2 V c (ix2 n d))
            (max (∑ n : Fin 50000, member (idArr2 V c (ix2 n (0 : Fin 1))) g) 1) * wArr2 V c (ix2 d j))
          + bArr2 V c (ix2 (0 : Fin 1) j))
    (t : Fin cfg2.N) (ht : (cfg2.win 4).flush t = true) :
    (dat2 (F := Ideal) V c).flushed 4 t = ((cfg2.win 4).blk t).view.read (Elt Ideal) G := by
  show (cfg2.win 4).cut (grid2.coords t) ((dat2 V c).after 4 t) = _
  rw [after2_4]
  obtain ⟨-, -, -, -, e0, e1⟩ := idx2 t
  have hN : t.val < 50 := lt_of_lt_of_eq t.isLt (show cfg2.N = 50 from N_2)
  have h49 : t.val = 49 := by have := (flush2_4 t).mp ht; omega
  funext y
  obtain ⟨g, j, rfl⟩ : ∃ (g : Fin 500) (j : Fin 10), y = ix2 g j := ⟨y 0, y 1, eq_ix2 y⟩
  show k2_pay6 (F := Ideal) (acc2 V c t.val t.isLt).1 (acc2 V c t.val t.isLt).2 (iblk2 V c 2 t) (iblk2 V c 3 t) (ix2 g j)
    = G (((cfg2.win 4).blk t).view.emb (ix2 g j))
  have hemb : ((cfg2.win 4).blk t).view.emb (ix2 g j) = ix2 g j := by
    funext a
    apply Fin.ext
    match a with
    | ⟨0, _⟩ => show win2_4.index t (0 : Fin 2) * 500 + 1 * g.val = g.val; rw [e0]; omega
    | ⟨1, _⟩ => show win2_4.index t (1 : Fin 2) * 10 + 1 * j.val = j.val; rw [e1]; omega
  rw [hemb, hG]
  have hS : ∀ d : Fin 64, (acc2 (F := Ideal) V c t.val t.isLt).1 (ix2 g d)
      = ∑ n : Fin 50000, member (idArr2 V c (ix2 n (0 : Fin 1))) g * hArr2 V c (ix2 n d) := fun d => by
    have h := acc2_sums V c g d t.val t.isLt
    rw [show 1000 * t.val + 1000 = 50000 from by omega] at h
    exact h.trans (sum_range_nodes fun n => member (idArr2 V c (ix2 n (0 : Fin 1))) g * hArr2 V c (ix2 n d))
  have hC : (acc2 (F := Ideal) V c t.val t.isLt).2 (ix2 g (0 : Fin 1))
      = ∑ n : Fin 50000, member (idArr2 V c (ix2 n (0 : Fin 1))) g := by
    have h := acc2_counts V c g t.val t.isLt
    rw [show 1000 * t.val + 1000 = 50000 from by omega] at h
    exact h.trans (sum_range_nodes fun n => member (idArr2 V c (ix2 n (0 : Fin 1))) g)
  exact pool_point (acc2 V c t.val t.isLt).1 (acc2 V c t.val t.isLt).2 (iblk2 V c 2 t) (wArr2 V c) (iblk2 V c 3 t) (bArr2 V c)
    g j _ _ hS hC (fun d => wblk2_apply V c t d j) (bblk2_apply V c t 0 j)

/-- An index of the array is in point t's block iff each coordinate is in the block's range on its axis. -/
theorem mem_blk2 (t : Fin cfg2.N) (i : S500x10.Idx) :
    i ∈ ((cfg2.win 4).blk t).view.set ↔ ∀ a : Fin 2, win2_4.index t a * S500x10.size a ≤ (i a).val
      ∧ (i a).val < win2_4.index t a * S500x10.size a + S500x10.size a := by
  show i ∈ ((View.whole main_v30).slice (win2_4.rect t)).set ↔ _
  rw [View.set_slice_whole, Rect.mem_set_unit]
  exact Iff.rfl

/-- Every index of the array is in the last point's block, the one block being the whole array. -/
theorem cover2 (i : S500x10.Idx) :
    ∃ t : Fin cfg2.N, (cfg2.win 4).flush t = true ∧ i ∈ ((cfg2.win 4).blk t).view.set := by
  have hi0 : (i 0).val < 500 := (i 0).isLt
  have hi1 : (i 1).val < 10 := (i 1).isLt
  have hq : 49 < 50 := by omega
  obtain ⟨-, -, -, -, e0, e1⟩ := idx2 ⟨49, hq⟩
  refine ⟨⟨49, hq⟩, (flush2_4 _).mpr rfl, ?_⟩
  rw [mem_blk2]
  intro a
  match a with
  | ⟨0, _⟩ =>
    show win2_4.index ⟨49, hq⟩ (0 : Fin 2) * 500 ≤ (i 0).val
      ∧ (i 0).val < win2_4.index ⟨49, hq⟩ (0 : Fin 2) * 500 + 500
    rw [e0]
    omega
  | ⟨1, _⟩ =>
    show win2_4.index ⟨49, hq⟩ (1 : Fin 2) * 10 ≤ (i 1).val
      ∧ (i 1).val < win2_4.index ⟨49, hq⟩ (1 : Fin 2) * 10 + 10
    rw [e1]
    omega

/-- The output array after the launch is any whole-array function G that is, at every (g, j), the classifier of the
    pooled sums and counts of the whole node arrays. -/
theorem pool_arr (c : Dev nD) (G : Vec Ideal S500x10 .f32)
    (hG : ∀ (g : Fin 500) (j : Fin 10), G (ix2 g j)
      = (∑ d : Fin 64, Ideal.div (∑ n : Fin 50000, member (idArr2 V c (ix2 n (0 : Fin 1))) g * hArr2 V c (ix2 n d))
            (max (∑ n : Fin 50000, member (idArr2 V c (ix2 n (0 : Fin 1))) g) 1) * wArr2 V c (ix2 d j))
          + bArr2 V c (ix2 (0 : Fin 1) j)) :
    (dat2 (F := Ideal) V c).arrAt 4 cfg2.N = G := by
  exact (dat2 (F := Ideal) V c).arrAt_eq_of_cover 4 G (fun t ht => flushed2_eq V c G hG t ht) cover2

end Cert.KernelIdeal.Hand

end
-- ==== Proof.RefStages.lean ====
/-
  The reference's stages read at an index over the extended reals.

  A graph-convolution layer of the reference is relu ((1 · h + agg) · W + b): at (n, j) it is
  max (Σ_k (h[n,k] + agg[n,k]) · W[k,j] + b[j]) 0, since 1 · x = x on the extended reals. The classifier is
  (sums / max cnt 1) · W3 + b3 with the count broadcast along the feature axis: at (g, j) it is
  Σ_d (sums[g,d] / max cnt[g] 1) · W3[d,j] + b3[j].
-/
import proofs.«429733_j73710228734579_1_alg».proof.Proof.Gen.ReferenceIdeal.Read
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.Stages

open Idealize.ShloMosaic Idealize.ShloMosaic.ValueIdx Cert.ReferenceIdeal Cert.ReferenceIdeal.Gen Cert.ReferenceIdeal.Read

variable (x0 : (⟨S50000x64, .f32⟩ : BufTy).Contents (Elt Ideal)) (x1 : (⟨S2x800000, .i32⟩ : BufTy).Contents (Elt Ideal))
  (x2 : (⟨S50000, .i32⟩ : BufTy).Contents (Elt Ideal)) (x3 : (⟨S64x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x10, .f32⟩ : BufTy).Contents (Elt Ideal))
  (x8 : (⟨S10, .f32⟩ : BufTy).Contents (Elt Ideal))

/-- The first layer at (n, j). -/
theorem h1_apply (n : Fin 50000) (j : Fin 64) :
    val_main_v21 (F := Ideal) x0 x1 x3 x4 (ix2 n j)
      = max ((∑ k : Fin 64, (x0 (ix2 n k) + val_main_v13 (F := Ideal) x0 x1 (ix2 n k)) * x3 (ix2 k j)) + x4 (ix1 j)) 0 := by
  have el : ∀ k : Fin 64, lidx_main_v17 (ix2 n j) k = ix2 n k := fun k =>
    funext fun a => Fin.ext (by match a with | ⟨0, _⟩ => rfl | ⟨1, _⟩ => rfl)
  have er : ∀ k : Fin 64, ridx_main_v17 (ix2 n j) k = ix2 k j := fun k =>
    funext fun a => Fin.ext (by match a with | ⟨0, _⟩ => rfl | ⟨1, _⟩ => rfl)
  have eb : idx_main_v18 (idx_main_v19 (ix2 n j)) = ix1 j :=
    funext fun a => Fin.ext (by match a with | ⟨0, _⟩ => rfl)
  rw [val_main_v21_apply, val_main_v20_apply, val_main_v17_apply, val_main_v19_apply, val_main_v18_apply,
    val_main_call0_v0_apply, val_main_call0_cst_apply, eb]
  simp only [el, er, val_main_v16_apply, val_main_v15_apply, val_main_v14_apply, val_main_cst_1_apply,
    Ideal.mulf_def, Ideal.addf_def, Ideal.maximumf_def, Ideal.ofBits_def, Ideal.ofBits_zero_f32,
    Ideal.ofBits_one_f32, one_mul]

/-- The second layer at (n, j), over the first layer's result and its neighbour sums. -/
theorem h2_apply (n : Fin 50000) (j : Fin 64) :
    val_main_v39 (F := Ideal) x0 x1 x3 x4 x5 x6 (ix2 n j)
      = max ((∑ k : Fin 64, (val_main_v21 (F := Ideal) x0 x1 x3 x4 (ix2 n k) + val_main_v31 (F := Ideal) x0 x1 x3 x4 (ix2 n k)) * x5 (ix2 k j)) + x6 (ix1 j)) 0 := by
  have el : ∀ k : Fin 64, lidx_main_v35 (ix2 n j) k = ix2 n k := fun k =>
    funext fun a => Fin.ext (by match a with | ⟨0, _⟩ => rfl | ⟨1, _⟩ => rfl)
  have er : ∀ k : Fin 64, ridx_main_v35 (ix2 n j) k = ix2 k j := fun k =>
    funext fun a => Fin.ext (by match a with | ⟨0, _⟩ => rfl | ⟨1, _⟩ => rfl)
  have eb : idx_main_v36 (idx_main_v37 (ix2 n j)) = ix1 j :=
    funext fun a => Fin.ext (by match a with | ⟨0, _⟩ => rfl)
  rw [val_main_v39_apply, val_main_v38_apply, val_main_v35_apply, val_main_v37_apply, val_main_v36_apply,
    val_main_call1_v0_apply, val_main_call1_cst_apply, eb]
  simp only [el, er, val_main_v34_apply, val_main_v33_apply, val_main_v32_apply, val_main_cst_5_apply,
    Ideal.mulf_def, Ideal.addf_def, Ideal.maximumf_def, Ideal.ofBits_def, Ideal.ofBits_zero_f32,
    Ideal.ofBits_one_f32, one_mul]

/-- The classifier at (g, j), over the pooled sums and counts. -/
theorem out_apply (g : Fin 500) (j : Fin 10) :
    val_main_v55 (F := Ideal) x0 x1 x2 x3 x4 x5 x6 x7 x8 (ix2 g j)
      = (∑ d : Fin 64, Ideal.div (val_main_v42 (F := Ideal) x0 x1 x2 x3 x4 x5 x6 (ix2 g d)) (max (val_main_v46 (F := Ideal) x2 (ix1 g)) 1) * x7 (ix2 d j)) + x8 (ix1 j) := by
  have el : ∀ d : Fin 64, lidx_main_v52 (ix2 g j) d = ix2 g d := fun d =>
    funext fun a => Fin.ext (by match a with | ⟨0, _⟩ => rfl | ⟨1, _⟩ => rfl)
  have er : ∀ d : Fin 64, ridx_main_v52 (ix2 g j) d = ix2 d j := fun d =>
    funext fun a => Fin.ext (by match a with | ⟨0, _⟩ => rfl | ⟨1, _⟩ => rfl)
  have ec : ∀ d : Fin 64, idx_main_v49 (idx_main_v50 (ix2 g d)) = ix1 g := fun d =>
    funext fun a => Fin.ext (by match a with | ⟨0, _⟩ => rfl)
  have eb : idx_main_v53 (idx_main_v54 (ix2 g j)) = ix1 j :=
    funext fun a => Fin.ext (by match a with | ⟨0, _⟩ => rfl)
  rw [val_main_v55_apply, val_main_v52_apply, val_main_v54_apply, val_main_v53_apply, eb]
  simp only [el, er, val_main_v51_apply, val_main_v50_apply, val_main_v49_apply, ec, val_main_v48_apply,
    val_main_v47_apply, val_main_cst_9_apply, Ideal.addf_def, Ideal.maximumf_def, Ideal.hostDivf_def,
    Ideal.ofBits_def, Ideal.ofBits_one_f32]

end Cert.ReferenceIdeal.Stages

end
-- ==== Proof.RefScatter.lean ====
/-
  The reference's two pooling scatters read at an index over the extended reals.

  A float scatter-add into zeros is, at each result element, the sum of the updates whose target is that element; an
  update whose target lies outside the result contributes nothing. Here update row n goes to row batch[n] (read as
  a signed word), so the pooled sum at (g, d) is Σ_n [batch[n] = g] · h[n,d] and the count at g is Σ_n [batch[n] = g].
-/
import proofs.«429733_j73710228734579_1_alg».proof.Proof.Gen.ReferenceIdeal.Read
import proofs.«429733_j73710228734579_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Scatters

open Idealize.ShloMosaic Idealize.ShloMosaic.ValueIdx Cert.ReferenceIdeal Cert.ReferenceIdeal.Gen Cert.ReferenceIdeal.Read Cert.Spec

/-! ## Small facts used by both scatters -/

/-- A 32-bit word read as a signed integer equals a graph number below 500 exactly when it is that number's word. -/
theorem toInt_eq_iff (b : BitVec 32) (g : Nat) (hg : g < 500) : b.toInt = (g : Int) ↔ b = BitVec.ofNat 32 g := by
  constructor
  · intro h
    apply BitVec.eq_of_toNat_eq
    rw [BitVec.toNat_ofNat]
    rw [BitVec.toInt_eq_toNat_cond] at h
    have := b.isLt
    split at h <;> omega
  · rintro rfl
    rw [BitVec.toInt_eq_toNat_cond, BitVec.toNat_ofNat]
    split <;> omega

/-- The single-precision pattern of 1.0 is the extended real 1. -/
theorem ofBits_one_f32 : Ideal.ofBits .f32 0x3F800000#32 = 1 := by
  simp [Ideal.ofBits, Ideal.ieee, -EReal.coe_mul]; norm_num

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Where an update of the count scatter lands

  The updates have rank 1 and no window axis; the one operand axis is an inserted one whose start is the id word of the
  update's row, read signed. So update n lands at g exactly when that word, as an integer, is g. -/

/-- Update j reads its start index at row j of the id column. -/
theorem counts_siIdx (j : S50000.Idx) (c : Fin 1) :
    scatter_S500_S50000x1_S50000_n_0_0_1.siIdx j c = ix2 (j 0) 0 := by
  funext b
  match b, c with
  | ⟨0, _⟩, ⟨0, _⟩ => rfl
  | ⟨1, _⟩, ⟨0, _⟩ => rfl

/-- The window's start on the operand's axis is the id word of the update's row, read signed. -/
theorem counts_start (idx : IVec S50000x1 32) (j : S50000.Idx) (a : Fin 1) :
    scatter_S500_S50000x1_S50000_n_0_0_1.start j idx a = (idx (ix2 (j 0) 0)).toInt := by
  unfold ScatterDims.start
  rw [dif_pos (by revert a; decide)]
  exact congrArg (fun i => (idx i).toInt) (counts_siIdx j _)

/-- The operand's axis is an inserted one: no window coordinate on it. -/
theorem counts_window (j : S50000.Idx) (a : Fin 1) :
    scatter_S500_S50000x1_S50000_n_0_0_1.window j a = 0 := by
  unfold ScatterDims.window
  exact dif_neg (by revert a; decide)

/-- Update j lands at g exactly when the id word of row j, read signed, is g. -/
theorem counts_resultIdx (idx : IVec S50000x1 32) (j : S50000.Idx) (g : Fin 500) :
    scatter_S500_S50000x1_S50000_n_0_0_1.resultIdx? j idx = some (ix1 g)
      ↔ (idx (ix2 (j 0) 0)).toInt = (g.val : Int) := by
  have hg := g.isLt
  unfold ScatterDims.resultIdx?
  constructor
  · intro h
    split at h
    · rename_i hh
      have h0 := congrArg Fin.val (congrFun (Option.some.inj h) ⟨0, by decide⟩)
      have h1 := (hh ⟨0, by decide⟩).1
      rw [counts_start, counts_window] at h1
      change (scatter_S500_S50000x1_S50000_n_0_0_1.start j idx _ + (scatter_S500_S50000x1_S50000_n_0_0_1.window j _ : Nat)).toNat = g.val at h0
      rw [counts_start, counts_window] at h0
      omega
    · cases h
  · intro h
    have H : ∀ a, 0 ≤ scatter_S500_S50000x1_S50000_n_0_0_1.start j idx a + (scatter_S500_S50000x1_S50000_n_0_0_1.window j a : Nat)
        ∧ scatter_S500_S50000x1_S50000_n_0_0_1.start j idx a + (scatter_S500_S50000x1_S50000_n_0_0_1.window j a : Nat) < (S500.size a : Nat) := by
      intro a
      match a with
      | ⟨0, _⟩ =>
        rw [counts_start, counts_window, h]
        show (0 : Int) ≤ (g.val : Int) + ((0 : Nat) : Int) ∧ (g.val : Int) + ((0 : Nat) : Int) < ((500 : Nat) : Int)
        omega
    rw [dif_pos H]
    refine congrArg some (funext fun a => ?_)
    match a with
    | ⟨0, _⟩ =>
      refine Fin.ext ?_
      show (scatter_S500_S50000x1_S50000_n_0_0_1.start j idx _ + (scatter_S500_S50000x1_S50000_n_0_0_1.window j _ : Nat)).toNat = g.val
      rw [counts_start, counts_window, h]
      omega

/-! ## Where an update of the sum scatter lands

  The updates have rank 2: axis 0 is the scatter axis (the row, whose id word gives the start on the operand's axis 0),
  axis 1 the window axis (the feature, carried unchanged to the operand's axis 1). So update (n, d') lands at (g, d)
  exactly when row n's id word, as an integer, is g and d' = d. -/

/-- Update j reads its start index at row j 0 of the id column. -/
theorem sums_siIdx (j : S50000x64.Idx) (c : Fin 1) :
    scatter_S500x64_S50000x1_S50000x64_1_0_0_1.siIdx j c = ix2 (j 0) 0 := by
  funext b
  match b, c with
  | ⟨0, _⟩, ⟨0, _⟩ => rfl
  | ⟨1, _⟩, ⟨0, _⟩ => rfl

/-- On the operand's axis 0 the window starts at the id word of the update's row, read signed. -/
theorem sums_start0 (idx : IVec S50000x1 32) (j : S50000x64.Idx) :
    scatter_S500x64_S50000x1_S50000x64_1_0_0_1.start j idx ⟨0, by decide⟩ = (idx (ix2 (j 0) 0)).toInt := by
  unfold ScatterDims.start
  rw [dif_pos (by decide)]
  exact congrArg (fun i => (idx i).toInt) (sums_siIdx j _)

/-- On the operand's axis 1, which no index names, the window starts at 0. -/
theorem sums_start1 (idx : IVec S50000x1 32) (j : S50000x64.Idx) :
    scatter_S500x64_S50000x1_S50000x64_1_0_0_1.start j idx ⟨1, by decide⟩ = 0 := by
  unfold ScatterDims.start
  exact dif_neg (by decide)

/-- The operand's axis 0 is an inserted one: no window coordinate on it. -/
theorem sums_window0 (j : S50000x64.Idx) :
    scatter_S500x64_S50000x1_S50000x64_1_0_0_1.window j ⟨0, by decide⟩ = 0 := by
  unfold ScatterDims.window
  exact dif_neg (by decide)

/-- On the operand's axis 1 the window coordinate is the update's feature coordinate. -/
theorem sums_window1 (j : S50000x64.Idx) :
    scatter_S500x64_S50000x1_S50000x64_1_0_0_1.window j ⟨1, by decide⟩ = (j 1).val := by
  unfold ScatterDims.window
  rw [dif_pos (by decide)]
  rfl

/-- Update j lands at (g, d) exactly when the id word of row j 0, read signed, is g and j's feature coordinate is d. -/
theorem sums_resultIdx (idx : IVec S50000x1 32) (j : S50000x64.Idx) (g : Fin 500) (d : Fin 64) :
    scatter_S500x64_S50000x1_S50000x64_1_0_0_1.resultIdx? j idx = some (ix2 g d)
      ↔ (idx (ix2 (j 0) 0)).toInt = (g.val : Int) ∧ (j 1).val = d.val := by
  have hg := g.isLt
  have hd := d.isLt
  have hj := idx2_lt1 j
  unfold ScatterDims.resultIdx?
  constructor
  · intro h
    split at h
    · rename_i hh
      have e := Option.some.inj h
      have h0 := congrArg Fin.val (congrFun e ⟨0, by decide⟩)
      have h1 := congrArg Fin.val (congrFun e ⟨1, by decide⟩)
      have p0 := (hh ⟨0, by decide⟩).1
      change (scatter_S500x64_S50000x1_S50000x64_1_0_0_1.start j idx ⟨0, by decide⟩
        + (scatter_S500x64_S50000x1_S50000x64_1_0_0_1.window j ⟨0, by decide⟩ : Nat)).toNat = g.val at h0
      change (scatter_S500x64_S50000x1_S50000x64_1_0_0_1.start j idx ⟨1, by decide⟩
        + (scatter_S500x64_S50000x1_S50000x64_1_0_0_1.window j ⟨1, by decide⟩ : Nat)).toNat = d.val at h1
      rw [sums_start0, sums_window0] at h0 p0
      rw [sums_start1, sums_window1] at h1
      constructor <;> omega
    · cases h
  · rintro ⟨h, h'⟩
    have H : ∀ a, 0 ≤ scatter_S500x64_S50000x1_S50000x64_1_0_0_1.start j idx a
          + (scatter_S500x64_S50000x1_S50000x64_1_0_0_1.window j a : Nat)
        ∧ scatter_S500x64_S50000x1_S50000x64_1_0_0_1.start j idx a
          + (scatter_S500x64_S50000x1_S50000x64_1_0_0_1.window j a : Nat) < (S500x64.size a : Nat) := by
      intro a
      match a with
      | ⟨0, _⟩ =>
        rw [sums_start0, sums_window0, h]
        show (0 : Int) ≤ (g.val : Int) + ((0 : Nat) : Int) ∧ (g.val : Int) + ((0 : Nat) : Int) < ((500 : Nat) : Int)
        omega
      | ⟨1, _⟩ =>
        rw [sums_start1, sums_window1]
        show (0 : Int) ≤ 0 + (((j 1).val : Nat) : Int) ∧ (0 : Int) + (((j 1).val : Nat) : Int) < ((64 : Nat) : Int)
        omega
    rw [dif_pos H]
    refine congrArg some (funext fun a => ?_)
    match a with
    | ⟨0, _⟩ =>
      refine Fin.ext ?_
      show (scatter_S500x64_S50000x1_S50000x64_1_0_0_1.start j idx ⟨0, by decide⟩
        + (scatter_S500x64_S50000x1_S50000x64_1_0_0_1.window j ⟨0, by decide⟩ : Nat)).toNat = g.val
      rw [sums_start0, sums_window0, h]
      omega
    | ⟨1, _⟩ =>
      refine Fin.ext ?_
      show (scatter_S500x64_S50000x1_S50000x64_1_0_0_1.start j idx ⟨1, by decide⟩
        + (scatter_S500x64_S50000x1_S50000x64_1_0_0_1.window j ⟨1, by decide⟩ : Nat)).toNat = d.val
      rw [sums_start1, sums_window1]
      omega

/-! ## The two scatters at an index -/

variable (x0 : (⟨S50000x64, .f32⟩ : BufTy).Contents (Elt Ideal)) (x1 : (⟨S2x800000, .i32⟩ : BufTy).Contents (Elt Ideal))
  (x2 : (⟨S50000, .i32⟩ : BufTy).Contents (Elt Ideal)) (x3 : (⟨S64x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal))

/-- Row n of the sum scatter's id column is node n's id word. -/
theorem id_col_sums (n : Fin 50000) : val_main_v41 (F := Ideal) x2 (ix2 n 0) = x2 (ix1 n) := by
  rw [val_main_v41_apply]
  exact congrArg x2 (funext fun a => match a with | ⟨0, _⟩ => rfl)

/-- Row n of the count scatter's id column is node n's id word. -/
theorem id_col_counts (n : Fin 50000) : val_main_v45 (F := Ideal) x2 (ix2 n 0) = x2 (ix1 n) := by
  rw [val_main_v45_apply]
  exact congrArg x2 (funext fun a => match a with | ⟨0, _⟩ => rfl)

/-- The pooled sum of graph g, feature d. -/
theorem sums_apply (g : Fin 500) (d : Fin 64) :
    val_main_v42 (F := Ideal) x0 x1 x2 x3 x4 x5 x6 (ix2 g d)
      = ∑ n : Fin 50000, member (x2 (ix1 n)) g * val_main_v39 (F := Ideal) x0 x1 x3 x4 x5 x6 (ix2 n d) := by
  unfold val_main_v42 Host.scatterAdd
  rw [Ideal.hostScatterAdd_def]
  unfold Ideal.hostScatterAdd
  generalize val_main_v39 (F := Ideal) x0 x1 x3 x4 x5 x6 = upd
  -- the operand is zero; the filtered sum over (n, d') becomes a double sum of guarded terms
  rw [val_main_v40_apply, val_main_cst_6_apply, Ideal.ofBits_def, Ideal.ofBits_zero_f32, zero_add]
  rw [Finset.sum_filter, sum_idx2]
  refine Finset.sum_congr rfl fun n _ => ?_
  have hc : ∀ d' : Fin 64,
      scatter_S500x64_S50000x1_S50000x64_1_0_0_1.resultIdx? (ix2 n d') (val_main_v41 (F := Ideal) x2) = some (ix2 g d)
        ↔ (x2 (ix1 n) = BitVec.ofNat 32 g.val ∧ d' = d) := by
    intro d'
    rw [sums_resultIdx]
    show (val_main_v41 (F := Ideal) x2 (ix2 n 0)).toInt = _ ∧ d'.val = d.val ↔ _
    rw [id_col_sums, toInt_eq_iff _ _ g.isLt, Fin.val_inj]
  rw [Finset.sum_congr rfl (fun d' _ => if_congr (hc d') rfl rfl)]
  unfold member
  -- the inner sum over d' keeps the one term d' = d when node n is in graph g, and nothing otherwise
  by_cases hP : x2 (ix1 n) = BitVec.ofNat 32 g.val
  · rw [if_pos hP, one_mul]
    rw [Finset.sum_congr rfl (fun d' _ => if_congr (and_iff_right hP) rfl rfl)]
    rw [Finset.sum_ite_eq' Finset.univ d (fun d' => upd (ix2 n d')), if_pos (Finset.mem_univ d)]
  · rw [if_neg hP, zero_mul]
    exact Finset.sum_eq_zero (fun d' _ => if_neg (fun h => hP h.1))

/-- The node count of graph g. -/
theorem counts_apply (g : Fin 500) :
    val_main_v46 (F := Ideal) x2 (ix1 g) = ∑ n : Fin 50000, member (x2 (ix1 n)) g := by
  unfold val_main_v46 Host.scatterAdd
  rw [Ideal.hostScatterAdd_def]
  unfold Ideal.hostScatterAdd
  -- the operand is zero and every update is 1; the filtered sum over n becomes a sum of guarded ones
  rw [val_main_v44_apply, val_main_cst_8_apply, Ideal.ofBits_def, Ideal.ofBits_zero_f32, zero_add]
  rw [Finset.sum_filter, sum_idx1]
  refine Finset.sum_congr rfl fun n _ => ?_
  rw [val_main_v43_apply, val_main_cst_7_apply, Ideal.ofBits_def, ofBits_one_f32]
  unfold member
  have hc : scatter_S500_S50000x1_S50000_n_0_0_1.resultIdx? (ix1 n) (val_main_v45 (F := Ideal) x2) = some (ix1 g)
      ↔ x2 (ix1 n) = BitVec.ofNat 32 g.val := by
    rw [counts_resultIdx]
    show (val_main_v45 (F := Ideal) x2 (ix2 n 0)).toInt = _ ↔ _
    rw [id_col_counts]
    exact toInt_eq_iff _ _ g.isLt
  exact if_congr hc rfl rfl

end Cert.ReferenceIdeal.Scatters

end
-- ==== Proof.KI.Values.lean ====
/-
  The value of the idealized kernel's result, over the extended reals, as the reference's own stages of the arguments.

  Walking the program's segments from the launch memory: the first stretch of host operations leaves the neighbour
  sums of the input features (the same gather and scatter-add the reference applies) and the first bias as a row; the
  first launch leaves, row by row, relu ((x + agg) · W1 + b1), which is the reference's first layer because
  1 · x = x; the second stretch gathers and scatter-adds that layer's result; the second launch leaves the second
  layer; the third stretch reshapes the last bias; and the pooling launch leaves the classifier of the per-graph sums
  and counts, which are the reference's two scatter-adds read as sums over the nodes of each graph.
-/
import proofs.«429733_j73710228734579_1_alg».proof.Proof.KI.Run
import proofs.«429733_j73710228734579_1_alg».proof.Proof.KI.LinVal0
import proofs.«429733_j73710228734579_1_alg».proof.Proof.KI.LinVal1
import proofs.«429733_j73710228734579_1_alg».proof.Proof.KI.PoolVal
import proofs.«429733_j73710228734579_1_alg».proof.Proof.RefStages
import proofs.«429733_j73710228734579_1_alg».proof.Proof.RefScatter
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo Idealize.SL.Sem
open Idealize.ShloMosaic.Pipeline (Dat)

variable (m : (ℓ : Loc nD τ sig) → Buf (Elt Ideal) ℓ) (ρ : Dev nD → PrngReg)

/-- The nine arguments at launch, at their literal types. -/
abbrev a0 (c : Dev nD) : Vec Ideal S50000x64 .f32 := m ((c : Thread nD τ).loc main_arg0)
abbrev a1 (c : Dev nD) : Vec Ideal S2x800000 .i32 := m ((c : Thread nD τ).loc main_arg1)
abbrev a2 (c : Dev nD) : Vec Ideal S50000 .i32 := m ((c : Thread nD τ).loc main_arg2)
abbrev a3 (c : Dev nD) : Vec Ideal S64x64 .f32 := m ((c : Thread nD τ).loc main_arg3)
abbrev a4 (c : Dev nD) : Vec Ideal S64 .f32 := m ((c : Thread nD τ).loc main_arg4)
abbrev a5 (c : Dev nD) : Vec Ideal S64x64 .f32 := m ((c : Thread nD τ).loc main_arg5)
abbrev a6 (c : Dev nD) : Vec Ideal S64 .f32 := m ((c : Thread nD τ).loc main_arg6)
abbrev a7 (c : Dev nD) : Vec Ideal S64x10 .f32 := m ((c : Thread nD τ).loc main_arg7)
abbrev a8 (c : Dev nD) : Vec Ideal S10 .f32 := m ((c : Thread nD τ).loc main_arg8)

/-! ## What the first launch finds and leaves -/

theorem E1_x (c : Dev nD) : xArr0 (E1 m ρ) c = a0 m c :=
  StableHlo.after_of_writes_sub hostOps0 (W0 m ρ c) hostOps0_writes (by decide)
theorem E1_w (c : Dev nD) : wArr0 (E1 m ρ) c = a3 m c :=
  StableHlo.after_of_writes_sub hostOps0 (W0 m ρ c) hostOps0_writes (by decide)
/-- The neighbour sums of the input features: the reference's own gather and scatter-add. -/
theorem E1_agg (c : Dev nD) : aArr0 (E1 m ρ) c = Cert.ReferenceIdeal.Read.val_main_v13 (F := Ideal) (a0 m c) (a1 m c) := by
  show StableHlo.after hostOps0 (W0 m ρ c) (Proc.devRef .tc main_v14) = _
  after_results
  rfl
/-- The first bias as a row. -/
theorem E1_b (c : Dev nD) (j : Fin 64) : bArr0 (E1 m ρ) c (ix2 (0 : Fin 1) j) = a4 m c (ix1 j) := by
  have e : bArr0 (E1 m ρ) c = shapeCast S1x64 (a4 m c) shapeCasts_S64_S1x64 := by
    show StableHlo.after hostOps0 (W0 m ρ c) (Proc.devRef .tc main_v15) = _
    after_results
    rfl
  rw [e]
  exact shapeCast_apply _ _ _ _ (by rw [Shape.rowMajor_val_one, Shape.rowMajor_val_two]; show j.val = (0 : Fin 1).val * _ + j.val; simp)

/-- The first layer: what the first launch leaves is the reference's first layer. -/
theorem H1 (c : Dev nD) :
    (dat0 (F := Ideal) (E1 m ρ) c).arrAt 4 cfg0.N = Cert.ReferenceIdeal.Read.val_main_v21 (F := Ideal) (a0 m c) (a1 m c) (a3 m c) (a4 m c) :=
  lin0_arr (E1 m ρ) c _ fun n j => by
    rw [Cert.ReferenceIdeal.Stages.h1_apply]
    refine congrArg (fun z => max z (0 : EReal)) (congrArg₂ (· + ·) (Finset.sum_congr rfl fun k _ => ?_) (E1_b m ρ c j).symm)
    exact congrArg₂ (· * ·) (congrArg₂ (· + ·) (congrFun (E1_x m ρ c).symm _) (congrFun (E1_agg m ρ c).symm _)) (congrFun (E1_w m ρ c).symm _)

/-! ## What the second launch finds and leaves -/

theorem E3_x (c : Dev nD) : xArr1 (E3 m ρ) c = Cert.ReferenceIdeal.Read.val_main_v21 (F := Ideal) (a0 m c) (a1 m c) (a3 m c) (a4 m c) :=
  (StableHlo.after_of_writes_sub hostOps1 (W2 m ρ c) hostOps1_writes (by decide)).trans ((W2_arr m ρ c 4).trans (H1 m ρ c))
theorem E3_w (c : Dev nD) : wArr1 (E3 m ρ) c = a5 m c :=
  (StableHlo.after_of_writes_sub hostOps1 (W2 m ρ c) hostOps1_writes (by decide)).trans
    ((W2_of_ne m ρ c main_arg5 (by decide)).trans (StableHlo.after_of_writes_sub hostOps0 (W0 m ρ c) hostOps0_writes (by decide)))
/-- The two index columns of the edge list, as the first stretch leaves them and the second finds them. -/
theorem W2_src (c : Dev nD) : W2 m ρ c (Proc.devRef .tc main_v1) = Cert.ReferenceIdeal.Read.val_main_v1 (F := Ideal) (a1 m c) := by
  rw [W2_of_ne m ρ c main_v1 (by decide)]
  show StableHlo.after hostOps0 (W0 m ρ c) (Proc.devRef .tc main_v1) = _
  after_results
  rfl
theorem W2_dst (c : Dev nD) : W2 m ρ c (Proc.devRef .tc main_v3) = Cert.ReferenceIdeal.Read.val_main_v3 (F := Ideal) (a1 m c) := by
  rw [W2_of_ne m ρ c main_v3 (by decide)]
  show StableHlo.after hostOps0 (W0 m ρ c) (Proc.devRef .tc main_v3) = _
  after_results
  rfl
/-- The neighbour sums of the first layer's result. -/
theorem E3_agg (c : Dev nD) : aArr1 (E3 m ρ) c = Cert.ReferenceIdeal.Read.val_main_v31 (F := Ideal) (a0 m c) (a1 m c) (a3 m c) (a4 m c) := by
  show StableHlo.after hostOps1 (W2 m ρ c) (Proc.devRef .tc main_v26) = _
  after_results
  rw [W2_src, W2_dst, (W2_arr m ρ c 4).trans (H1 m ρ c)]
  rfl
theorem E3_b (c : Dev nD) (j : Fin 64) : bArr1 (E3 m ρ) c (ix2 (0 : Fin 1) j) = a6 m c (ix1 j) := by
  have e : bArr1 (E3 m ρ) c = shapeCast S1x64 (a6 m c) shapeCasts_S64_S1x64 := by
    show StableHlo.after hostOps1 (W2 m ρ c) (Proc.devRef .tc main_v27) = _
    after_results
    have h6 : W1 m ρ c (Proc.devRef .tc main_arg6) = a6 m c := StableHlo.after_of_writes_sub hostOps0 (W0 m ρ c) hostOps0_writes (by decide)
    try rw [W2_of_ne m ρ c main_arg6 (by decide)]
    rw [h6]
    rfl
  rw [e]
  exact shapeCast_apply _ _ _ _ (by rw [Shape.rowMajor_val_one, Shape.rowMajor_val_two]; show j.val = (0 : Fin 1).val * _ + j.val; simp)

/-- The second layer. -/
theorem H2 (c : Dev nD) :
    (dat1 (F := Ideal) (E3 m ρ) c).arrAt 4 cfg1.N = Cert.ReferenceIdeal.Read.val_main_v39 (F := Ideal) (a0 m c) (a1 m c) (a3 m c) (a4 m c) (a5 m c) (a6 m c) :=
  lin1_arr (E3 m ρ) c _ fun n j => by
    rw [Cert.ReferenceIdeal.Stages.h2_apply]
    refine congrArg (fun z => max z (0 : EReal)) (congrArg₂ (· + ·) (Finset.sum_congr rfl fun k _ => ?_) (E3_b m ρ c j).symm)
    exact congrArg₂ (· * ·) (congrArg₂ (· + ·) (congrFun (E3_x m ρ c).symm _) (congrFun (E3_agg m ρ c).symm _)) (congrFun (E3_w m ρ c).symm _)

/-! ## What the pooling launch finds and leaves -/

theorem E5_h (c : Dev nD) : hArr2 (E5 m ρ) c = Cert.ReferenceIdeal.Read.val_main_v39 (F := Ideal) (a0 m c) (a1 m c) (a3 m c) (a4 m c) (a5 m c) (a6 m c) :=
  (StableHlo.after_of_writes_sub hostOps2 (W4 m ρ c) hostOps2_writes (by decide)).trans ((W4_arr m ρ c 4).trans (H2 m ρ c))
theorem E5_w (c : Dev nD) : wArr2 (E5 m ρ) c = a7 m c :=
  (StableHlo.after_of_writes_sub hostOps2 (W4 m ρ c) hostOps2_writes (by decide)).trans
    ((W4_of_ne m ρ c main_arg7 (by decide)).trans ((StableHlo.after_of_writes_sub hostOps1 (W2 m ρ c) hostOps1_writes (by decide)).trans
      ((W2_of_ne m ρ c main_arg7 (by decide)).trans (StableHlo.after_of_writes_sub hostOps0 (W0 m ρ c) hostOps0_writes (by decide)))))
/-- The node-to-graph ids as a column. -/
theorem E5_id (c : Dev nD) (n : Fin 50000) : idArr2 (E5 m ρ) c (ix2 n (0 : Fin 1)) = a2 m c (ix1 n) := by
  have e : idArr2 (E5 m ρ) c = shapeCast S50000x1 (a2 m c) shapeCasts_S50000_S50000x1 := by
    refine (StableHlo.after_of_writes_sub hostOps2 (W4 m ρ c) hostOps2_writes (by decide)).trans
      ((W4_of_ne m ρ c main_v4 (by decide)).trans ((StableHlo.after_of_writes_sub hostOps1 (W2 m ρ c) hostOps1_writes (by decide)).trans
        ((W2_of_ne m ρ c main_v4 (by decide)).trans ?_)))
    show StableHlo.after hostOps0 (W0 m ρ c) (Proc.devRef .tc main_v4) = _
    after_results
    rfl
  rw [e]
  exact shapeCast_apply _ _ _ _ (by rw [Shape.rowMajor_val_one, Shape.rowMajor_val_two]; show n.val = n.val * 1 + 0; omega)
/-- The last bias as a row. -/
theorem E5_b (c : Dev nD) (j : Fin 10) : bArr2 (E5 m ρ) c (ix2 (0 : Fin 1) j) = a8 m c (ix1 j) := by
  have e : bArr2 (E5 m ρ) c = shapeCast S1x10 (a8 m c) shapeCasts_S10_S1x10 := by
    show StableHlo.after hostOps2 (W4 m ρ c) (Proc.devRef .tc main_v29) = _
    after_results
    have h8 : W3 m ρ c (Proc.devRef .tc main_arg8) = a8 m c :=
      (StableHlo.after_of_writes_sub hostOps1 (W2 m ρ c) hostOps1_writes (by decide)).trans
        ((W2_of_ne m ρ c main_arg8 (by decide)).trans (StableHlo.after_of_writes_sub hostOps0 (W0 m ρ c) hostOps0_writes (by decide)))
    try rw [W4_of_ne m ρ c main_arg8 (by decide)]
    rw [h8]
    rfl
  rw [e]
  exact shapeCast_apply _ _ _ _ (by rw [Shape.rowMajor_val_one, Shape.rowMajor_val_two]; show j.val = (0 : Fin 1).val * _ + j.val; simp)

/-- THE RESULT: what the program leaves in its result buffer is the reference's last stage of the arguments. -/
theorem result_eq (c : Dev nD) :
    W6 (F := Ideal) m ρ c (Proc.devRef .tc main_v30) = Cert.ReferenceIdeal.Read.val_main_v55 (F := Ideal) (a0 m c) (a1 m c) (a2 m c) (a3 m c) (a4 m c) (a5 m c) (a6 m c) (a7 m c) (a8 m c) :=
  (W6_arr m ρ c 4).trans <| pool_arr (E5 m ρ) c _ fun g j => by
    rw [Cert.ReferenceIdeal.Stages.out_apply]
    simp only [Cert.ReferenceIdeal.Scatters.sums_apply, Cert.ReferenceIdeal.Scatters.counts_apply]
    refine congrArg₂ (· + ·) (Finset.sum_congr rfl fun d _ => ?_) (E5_b m ρ c j).symm
    refine congrArg₂ (· * ·) (congrArg₂ Ideal.div (Finset.sum_congr rfl fun n _ => ?_)
      (congrArg (fun z => max z (1 : EReal)) (Finset.sum_congr rfl fun n _ => ?_))) (congrFun (E5_w m ρ c).symm _)
    · exact congrArg₂ (· * ·) (congrArg (fun b => Cert.Spec.member b g) (E5_id m ρ c n).symm) (congrFun (E5_h m ρ c).symm _)
    · exact congrArg (fun b => Cert.Spec.member b g) (E5_id m ρ c n).symm

end Cert.KernelIdeal.Hand

end
-- ==== Proof.lean ====
/-
  A three-launch graph network against its plain reference, over the extended reals.

  The kernel program: neighbour sums of the node features by a gather and a scatter-add on the host; a first launch
  computing relu ((x + agg) · W1 + b1) in ten blocks of rows; the same again on that result with W2, b2; and a pooling
  launch that, over fifty blocks of nodes, accumulates per-graph feature sums and node counts as products with the 0/1
  membership matrix of the node-to-graph ids, and at the last block stores (sums / max counts 1) · W3 + b3.
  The reference: the same gather and scatter-add, relu ((1 · h + agg) · W + b) twice, the per-graph sums and counts by
  scatter-adds along the ids, and the same classifier.

  They agree at every index: 1 · h = h; a block-wise matrix product is the whole one row by row; and a scatter-add
  along the ids is, graph by graph, the sum over the nodes whose id names that graph — a node whose id names no graph
  is dropped by the scatter and matches no column of the membership matrix. Sums on the extended reals commute and
  associate, and 0 · x = 0, 1 · x = x hold there, so no finiteness of the inputs is used.

  The three frames: each kernel program runs to the end with its arguments unchanged because no segment of it writes
  an argument; the reference is a straight line of host operations.
-/
import proofs.«429733_j73710228734579_1_alg».proof.Defs
import proofs.«429733_j73710228734579_1_alg».proof.Proof.Gen.Kernel
import proofs.«429733_j73710228734579_1_alg».proof.Proof.Gen.KernelIdeal
import proofs.«429733_j73710228734579_1_alg».proof.Proof.Gen.ReferenceIdeal
import proofs.«429733_j73710228734579_1_alg».proof.Proof.Gen.Pre_finite_inputs
import proofs.«429733_j73710228734579_1_alg».proof.Proof.Gen.ReferenceIdeal.Run
import proofs.«429733_j73710228734579_1_alg».proof.Proof.Gen.ReferenceIdeal.Read
import proofs.«429733_j73710228734579_1_alg».proof.Proof.K.Run
import proofs.«429733_j73710228734579_1_alg».proof.Proof.KI.Values
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched. -/
theorem frame_k : @Cert.frame_Kernel Cert.Kernel.Gen.facts Cert.Pre_finite_inputs.Gen.facts :=
  fun m ρ _ => Cert.Kernel.Hand.frame m ρ

/-- So does its idealization. -/
theorem frame_ki : @Cert.frame_KernelIdeal Cert.KernelIdeal.Gen.facts Cert.Pre_finite_inputs.Gen.facts :=
  fun m ρ _ => Cert.KernelIdeal.Hand.frame m ρ

/-- The reference runs to the end and leaves its arguments as launched: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the reference's last stage of the
    arguments in their result buffers. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.W6 (F := Ideal) m ρ c (Proc.devRef .tc Cert.KernelIdeal.main_v30), ?_, ?_⟩
  · exact (θ_run Cert.KernelIdeal.defs _ _).mono (fun r h c =>
      ⟨h c _ (Cert.KernelIdeal.Hand.mem_uc Cert.KernelIdeal.main_v30 (by decide)),
       (h c _ (Cert.KernelIdeal.Hand.mem_uc Cert.KernelIdeal.main_arg0 (by decide))).trans (Cert.KernelIdeal.Hand.W6_main_arg0 m ρ c),
       (h c _ (Cert.KernelIdeal.Hand.mem_uc Cert.KernelIdeal.main_arg1 (by decide))).trans (Cert.KernelIdeal.Hand.W6_main_arg1 m ρ c),
       (h c _ (Cert.KernelIdeal.Hand.mem_uc Cert.KernelIdeal.main_arg2 (by decide))).trans (Cert.KernelIdeal.Hand.W6_main_arg2 m ρ c),
       (h c _ (Cert.KernelIdeal.Hand.mem_uc Cert.KernelIdeal.main_arg3 (by decide))).trans (Cert.KernelIdeal.Hand.W6_main_arg3 m ρ c),
       (h c _ (Cert.KernelIdeal.Hand.mem_uc Cert.KernelIdeal.main_arg4 (by decide))).trans (Cert.KernelIdeal.Hand.W6_main_arg4 m ρ c),
       (h c _ (Cert.KernelIdeal.Hand.mem_uc Cert.KernelIdeal.main_arg5 (by decide))).trans (Cert.KernelIdeal.Hand.W6_main_arg5 m ρ c),
       (h c _ (Cert.KernelIdeal.Hand.mem_uc Cert.KernelIdeal.main_arg6 (by decide))).trans (Cert.KernelIdeal.Hand.W6_main_arg6 m ρ c),
       (h c _ (Cert.KernelIdeal.Hand.mem_uc Cert.KernelIdeal.main_arg7 (by decide))).trans (Cert.KernelIdeal.Hand.W6_main_arg7 m ρ c),
       (h c _ (Cert.KernelIdeal.Hand.mem_uc Cert.KernelIdeal.main_arg8 (by decide))).trans (Cert.KernelIdeal.Hand.W6_main_arg8 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v55_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact (Cert.KernelIdeal.Hand.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
